-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26 : Shape := ⟨2, ![16384, 26]⟩
abbrev S16384x13 : Shape := ⟨2, ![16384, 13]⟩
abbrev S10400000x1 : Shape := ⟨2, ![10400000, 1]⟩
abbrev S10400000x4 : Shape := ⟨2, ![10400000, 4]⟩
abbrev S1 : Shape := ⟨1, ![1]⟩
abbrev S117x12 : Shape := ⟨2, ![117, 12]⟩
abbrev S12 : Shape := ⟨1, ![12]⟩
abbrev S12x8 : Shape := ⟨2, ![12, 8]⟩
abbrev S8 : Shape := ⟨1, ![8]⟩
abbrev S8x4 : Shape := ⟨2, ![8, 4]⟩
abbrev S4 : Shape := ⟨1, ![4]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S10400000x1 : S_.BroadcastsInDim S10400000x1 (![] : Fin 0 → Fin S10400000x1.rank)
  reducesTo_S10400000x1_S_d0_1 : S10400000x1.ReducesTo [0, 1] S_
  bcast_S_S10400000x4 : S_.BroadcastsInDim S10400000x4 (![] : Fin 0 → Fin S10400000x4.rank)
  reducesTo_S10400000x4_S_d0_1 : S10400000x4.ReducesTo [0, 1] S_
  bcast_S_S1 : S_.BroadcastsInDim S1 (![] : Fin 0 → Fin S1.rank)
  reducesTo_S1_S_d0 : S1.ReducesTo [0] S_
  bcast_S_S117x12 : S_.BroadcastsInDim S117x12 (![] : Fin 0 → Fin S117x12.rank)
  reducesTo_S117x12_S_d0_1 : S117x12.ReducesTo [0, 1] S_
  bcast_S_S12 : S_.BroadcastsInDim S12 (![] : Fin 0 → Fin S12.rank)
  reducesTo_S12_S_d0 : S12.ReducesTo [0] S_
  bcast_S_S12x8 : S_.BroadcastsInDim S12x8 (![] : Fin 0 → Fin S12x8.rank)
  reducesTo_S12x8_S_d0_1 : S12x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_

variable [Facts]

def fn_part6 {F : FTy → Type} [FloatOps F] (main_arg22 : FVec F S4 .f32) (main_v98 : IVec S_ 1) (main_v101 : IVec S4 1) (main_c_39 : IVec S_ 1) : IVec S_ 1 :=
  let main_v102 : IVec S_ 1 := (fun x v => Host.reduce IntOp.andi x v reducesTo_S4_S_d0 h_S_) main_v101 main_c_39
  let main_v103 : IVec S_ 1 := andi main_v98 main_v102
  let main_v104 : FVec F S4 .f32 := Host.absf main_arg22
  let main_cst_40 : FVec F S_ .f32 := constant S_ .f32 0x7F800000#32
  let main_v105 : FVec F S4 .f32 := broadcastInDim S4 ![] bcast_S_S4 main_cst_40
  let main_v106 : IVec S4 1 := cmpf .olt main_v104 main_v105
  let main_c_41 : IVec S_ 1 := constantI S_ 1 1#1
  let main_v107 : IVec S_ 1 := (fun x v => Host.reduce IntOp.andi x v reducesTo_S4_S_d0 h_S_) main_v106 main_c_41
  let main_v108 : IVec S_ 1 := andi main_v103 main_v107
  main_v108

def fn_part5 {F : FTy → Type} [FloatOps F] (main_arg19 : FVec F S4 .f32) (main_arg20 : FVec F S4 .f32) (main_arg21 : FVec F S4 .f32) (main_arg22 : FVec F S4 .f32) (main_v83 : IVec S_ 1) (main_v84 : FVec F S4 .f32) (main_cst_32 : FVec F S_ .f32) : IVec S_ 1 :=
  let main_v85 : FVec F S4 .f32 := broadcastInDim S4 ![] bcast_S_S4 main_cst_32
  let main_v86 : IVec S4 1 := cmpf .olt main_v84 main_v85
  let main_c_33 : IVec S_ 1 := constantI S_ 1 1#1
  let main_v87 : IVec S_ 1 := (fun x v => Host.reduce IntOp.andi x v reducesTo_S4_S_d0 h_S_) main_v86 main_c_33
  let main_v88 : IVec S_ 1 := andi main_v83 main_v87
  let main_v89 : FVec F S4 .f32 := Host.absf main_arg19
  let main_cst_34 : FVec F S_ .f32 := constant S_ .f32 0x7F800000#32
  let main_v90 : FVec F S4 .f32 := broadcastInDim S4 ![] bcast_S_S4 main_cst_34
  let main_v91 : IVec S4 1 := cmpf .olt main_v89 main_v90
  let main_c_35 : IVec S_ 1 := constantI S_ 1 1#1
  let main_v92 : IVec S_ 1 := (fun x v => Host.reduce IntOp.andi x v reducesTo_S4_S_d0 h_S_) main_v91 main_c_35
  let main_v93 : IVec S_ 1 := andi main_v88 main_v92
  let main_v94 : FVec F S4 .f32 := Host.absf main_arg20
  let main_cst_36 : FVec F S_ .f32 := constant S_ .f32 0x7F800000#32
  let main_v95 : FVec F S4 .f32 := broadcastInDim S4 ![] bcast_S_S4 main_cst_36
  let main_v96 : IVec S4 1 := cmpf .olt main_v94 main_v95
  let main_c_37 : IVec S_ 1 := constantI S_ 1 1#1
  let main_v97 : IVec S_ 1 := (fun x v => Host.reduce IntOp.andi x v reducesTo_S4_S_d0 h_S_) main_v96 main_c_37
  let main_v98 : IVec S_ 1 := andi main_v93 main_v97
  let main_v99 : FVec F S4 .f32 := Host.absf main_arg21
  let main_cst_38 : FVec F S_ .f32 := constant S_ .f32 0x7F800000#32
  let main_v100 : FVec F S4 .f32 := broadcastInDim S4 ![] bcast_S_S4 main_cst_38
  let main_v101 : IVec S4 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S8 .f32) (main_arg16 : FVec F S8 .f32) (main_arg17 : FVec F S8x4 .f32) (main_arg18 : FVec F S4 .f32) (main_arg19 : FVec F S4 .f32) (main_arg20 : FVec F S4 .f32) (main_arg21 : FVec F S4 .f32) (main_arg22 : FVec F S4 .f32) (main_v63 : IVec S_ 1) (main_v67 : IVec S_ 1) : IVec S_ 1 :=
  let main_v68 : IVec S_ 1 := andi main_v63 main_v67
  let main_v69 : FVec F S8 .f32 := Host.absf main_arg15
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  let main_v74 : FVec F S8 .f32 := Host.absf main_arg16
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  let main_v79 : FVec F S8x4 .f32 := Host.absf main_arg17
  let main_cst_30 : FVec F S_ .f32 := constant S_ .f32 0x7F800000#32
  let main_v80 : FVec F S8x4 .f32 := broadcastInDim S8x4 ![] bcast_S_S8x4 main_cst_30
  let main_v81 : IVec S8x4 1 := cmpf .olt main_v79 main_v80
  let main_c_31 : IVec S_ 1 := constantI S_ 1 1#1
  let main_v82 : IVec S_ 1 := (fun x v => Host.reduce IntOp.andi x v reducesTo_S8x4_S_d0_1 h_S_) main_v81 main_c_31
  let main_v83 : IVec S_ 1 := andi main_v78 main_v82
  let main_v84 : FVec F S4 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S8 .f32) (main_arg13 : FVec F S8 .f32) (main_arg14 : FVec F S8 .f32) (main_arg15 : FVec F S8 .f32) (main_arg16 : FVec F S8 .f32) (main_arg17 : FVec F S8x4 .f32) (main_arg18 : FVec F S4 .f32) (main_arg19 : FVec F S4 .f32) (main_arg20 : FVec F S4 .f32) (main_arg21 : FVec F S4 .f32) (main_arg22 : FVec F S4 .f32) (main_v48 : IVec S_ 1) (main_v49 : FVec F S12x8 .f32) (main_v50 : FVec F S12x8 .f32) : IVec S_ 1 :=
  let main_v51 : IVec S12x8 1 := cmpf .olt main_v49 main_v50
  let main_c_19 : IVec S_ 1 := constantI S_ 1 1#1
  let main_v52 : IVec S_ 1 := (fun x v => Host.reduce IntOp.andi x v reducesTo_S12x8_S_d0_1 h_S_) main_v51 main_c_19
  let main_v53 : IVec S_ 1 := andi main_v48 main_v52
  let main_v54 : FVec F S8 .f32 := Host.absf main_arg12
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S8 .f32 := Host.absf main_arg13
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S8 .f32 := Host.absf main_arg14
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S12 .f32) (main_arg9 : FVec F S12 .f32) (main_arg10 : FVec F S12 .f32) (main_arg11 : FVec F S12x8 .f32) (main_arg12 : FVec F S8 .f32) (main_arg13 : FVec F S8 .f32) (main_arg14 : FVec F S8 .f32) (main_arg15 : FVec F S8 .f32) (main_arg16 : FVec F S8 .f32) (main_arg17 : FVec F S8x4 .f32) (main_arg18 : FVec F S4 .f32) (main_arg19 : FVec F S4 .f32) (main_arg20 : FVec F S4 .f32) (main_arg21 : FVec F S4 .f32) (main_arg22 : FVec F S4 .f32) (main_v33 : IVec S_ 1) : IVec S_ 1 :=
  let main_v34 : FVec F S12 .f32 := Host.absf main_arg8
  let main_cst_12 : FVec F S_ .f32 := constant S_ .f32 0x7F800000#32
  let main_v35 : FVec F S12 .f32 := broadcastInDim S12 ![] bcast_S_S12 main_cst_12
  let main_v36 : IVec S12 1 := cmpf .olt main_v34 main_v35
  let main_c_13 : IVec S_ 1 := constantI S_ 1 1#1
  let main_v37 : IVec S_ 1 := (fun x v => Host.reduce IntOp.andi x v reducesTo_S12_S_d0 h_S_) main_v36 main_c_13
  let main_v38 : IVec S_ 1 := andi main_v33 main_v37
  let main_v39 : FVec F S12 .f32 := Host.absf main_arg9
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  let main_v44 : FVec F S12 .f32 := Host.absf main_arg10
  let main_cst_16 : FVec F S_ .f32 := constant S_ .f32 0x7F800000#32
  let main_v45 : FVec F S12 .f32 := broadcastInDim S12 ![] bcast_S_S12 main_cst_16
  let main_v46 : IVec S12 1 := cmpf .olt main_v44 main_v45
  let main_c_17 : IVec S_ 1 := constantI S_ 1 1#1
  let main_v47 : IVec S_ 1 := (fun x v => Host.reduce IntOp.andi x v reducesTo_S12_S_d0 h_S_) main_v46 main_c_17
  let main_v48 : IVec S_ 1 := andi main_v43 main_v47
  let main_v49 : FVec F S12x8 .f32 := Host.absf main_arg11
  let main_cst_18 : FVec F S_ .f32 := constant S_ .f32 0x7F800000#32
  let main_v50 : FVec F S12x8 .f32 := broadcastInDim S12x8 ![] bcast_S_S12x8 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S117x12 .f32) (main_arg6 : FVec F S12 .f32) (main_arg7 : FVec F S12 .f32) (main_arg8 : FVec F S12 .f32) (main_arg9 : FVec F S12 .f32) (main_arg10 : FVec F S12 .f32) (main_arg11 : FVec F S12x8 .f32) (main_arg12 : FVec F S8 .f32) (main_arg13 : FVec F S8 .f32) (main_arg14 : FVec F S8 .f32) (main_arg15 : FVec F S8 .f32) (main_arg16 : FVec F S8 .f32) (main_arg17 : FVec F S8x4 .f32) (main_arg18 : FVec F S4 .f32) (main_arg19 : FVec F S4 .f32) (main_arg20 : FVec F S4 .f32) (main_arg21 : FVec F S4 .f32) (main_arg22 : FVec F S4 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S117x12 .f32 := Host.absf main_arg5
  let main_cst_6 : FVec F S_ .f32 := constant S_ .f32 0x7F800000#32
  let main_v20 : FVec F S117x12 .f32 := broadcastInDim S117x12 ![] bcast_S_S117x12 main_cst_6
  let main_v21 : IVec S117x12 1 := cmpf .olt main_v19 main_v20
  let main_c_7 : IVec S_ 1 := constantI S_ 1 1#1
  let main_v22 : IVec S_ 1 := (fun x v => Host.reduce IntOp.andi x v reducesTo_S117x12_S_d0_1 h_S_) main_v21 main_c_7
  let main_v23 : IVec S_ 1 := andi main_v18 main_v22
  let main_v24 : FVec F S12 .f32 := Host.absf main_arg6
  let main_cst_8 : FVec F S_ .f32 := constant S_ .f32 0x7F800000#32
  let main_v25 : FVec F S12 .f32 := broadcastInDim S12 ![] bcast_S_S12 main_cst_8
  let main_v26 : IVec S12 1 := cmpf .olt main_v24 main_v25
  let main_c_9 : IVec S_ 1 := constantI S_ 1 1#1
  let main_v27 : IVec S_ 1 := (fun x v => Host.reduce IntOp.andi x v reducesTo_S12_S_d0 h_S_) main_v26 main_c_9
  let main_v28 : IVec S_ 1 := andi main_v23 main_v27
  let main_v29 : FVec F S12 .f32 := Host.absf main_arg7
  let main_cst_10 : FVec F S_ .f32 := constant S_ .f32 0x7F800000#32
  let main_v30 : FVec F S12 .f32 := broadcastInDim S12 ![] bcast_S_S12 main_cst_10
  let main_v31 : IVec S12 1 := cmpf .olt main_v29 main_v30
  let main_c_11 : IVec S_ 1 := constantI S_ 1 1#1
  let main_v32 : IVec S_ 1 := (fun x v => Host.reduce IntOp.andi x v reducesTo_S12_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : IVec S16384x26 32) (main_arg1 : FVec F S16384x13 .f32) (main_arg2 : FVec F S10400000x1 .f32) (main_arg3 : FVec F S10400000x4 .f32) (main_arg4 : FVec F S1 .f32) (main_arg5 : FVec F S117x12 .f32) (main_arg6 : FVec F S12 .f32) (main_arg7 : FVec F S12 .f32) (main_arg8 : FVec F S12 .f32) (main_arg9 : FVec F S12 .f32) (main_arg10 : FVec F S12 .f32) (main_arg11 : FVec F S12x8 .f32) (main_arg12 : FVec F S8 .f32) (main_arg13 : FVec F S8 .f32) (main_arg14 : FVec F S8 .f32) (main_arg15 : FVec F S8 .f32) (main_arg16 : FVec F S8 .f32) (main_arg17 : FVec F S8x4 .f32) (main_arg18 : FVec F S4 .f32) (main_arg19 : FVec F S4 .f32) (main_arg20 : FVec F S4 .f32) (main_arg21 : FVec F S4 .f32) (main_arg22 : FVec F S4 .f32) : IVec S_ 1 :=
  let main_v0 : FVec F S16384x13 .f32 := Host.absf main_arg1
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S10400000x1 .f32 := Host.absf main_arg2
  let main_cst_0 : FVec F S_ .f32 := constant S_ .f32 0x7F800000#32
  let main_v5 : FVec F S10400000x1 .f32 := broadcastInDim S10400000x1 ![] bcast_S_S10400000x1 main_cst_0
  let main_v6 : IVec S10400000x1 1 := cmpf .olt main_v4 main_v5
  let main_c_1 : IVec S_ 1 := constantI S_ 1 1#1
  let main_v7 : IVec S_ 1 := (fun x v => Host.reduce IntOp.andi x v reducesTo_S10400000x1_S_d0_1 h_S_) main_v6 main_c_1
  let main_v8 : IVec S_ 1 := andi main_v3 main_v7
  let main_v9 : FVec F S10400000x4 .f32 := Host.absf main_arg3
  let main_cst_2 : FVec F S_ .f32 := constant S_ .f32 0x7F800000#32
  let main_v10 : FVec F S10400000x4 .f32 := broadcastInDim S10400000x4 ![] bcast_S_S10400000x4 main_cst_2
  let main_v11 : IVec S10400000x4 1 := cmpf .olt main_v9 main_v10
  let main_c_3 : IVec S_ 1 := constantI S_ 1 1#1
  let main_v12 : IVec S_ 1 := (fun x v => Host.reduce IntOp.andi x v reducesTo_S10400000x4_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S16384x26 : Shape := ⟨2, ![16384, 26]⟩
abbrev S16384x13 : Shape := ⟨2, ![16384, 13]⟩
abbrev S10400000x1 : Shape := ⟨2, ![10400000, 1]⟩
abbrev S10400000x4 : Shape := ⟨2, ![10400000, 4]⟩
abbrev S1 : Shape := ⟨1, ![1]⟩
abbrev S117x12 : Shape := ⟨2, ![117, 12]⟩
abbrev S12 : Shape := ⟨1, ![12]⟩
abbrev S12x8 : Shape := ⟨2, ![12, 8]⟩
abbrev S8 : Shape := ⟨1, ![8]⟩
abbrev S8x4 : Shape := ⟨2, ![8, 4]⟩
abbrev S4 : Shape := ⟨1, ![4]⟩
abbrev S_ : Shape := ⟨0, ![]⟩
abbrev S16384x26x1 : Shape := ⟨3, ![16384, 26, 1]⟩
abbrev S16384x26x4 : Shape := ⟨3, ![16384, 26, 4]⟩
abbrev S16384x1 : Shape := ⟨2, ![16384, 1]⟩
abbrev S1024x26x4 : Shape := ⟨3, ![1024, 26, 4]⟩
abbrev S1024x26 : Shape := ⟨2, ![1024, 26]⟩
abbrev S1024x13 : Shape := ⟨2, ![1024, 13]⟩
abbrev S1024x1 : Shape := ⟨2, ![1024, 1]⟩
abbrev S1024x4 : Shape := ⟨2, ![1024, 4]⟩
abbrev S1024 : Shape := ⟨1, ![1024]⟩
abbrev S1024x104 : Shape := ⟨2, ![1024, 104]⟩
abbrev S1024x117 : Shape := ⟨2, ![1024, 117]⟩
abbrev S1024x12 : Shape := ⟨2, ![1024, 12]⟩
abbrev S1x12 : Shape := ⟨2, ![1, 12]⟩
abbrev S1024x8 : Shape := ⟨2, ![1024, 8]⟩
abbrev S1x8 : Shape := ⟨2, ![1, 8]⟩
abbrev S1x4 : Shape := ⟨2, ![1, 4]⟩
abbrev S1x1 : Shape := ⟨2, ![1, 1]⟩
abbrev S16384 : Shape := ⟨1, ![16384]⟩

abbrev nBuf : Space → Nat
  | .hbm => 44
  | .vmem => 27
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S10400000x1, .f32⟩
  | .hbm, ⟨3, _⟩ => ⟨S10400000x4, .f32⟩
  | .hbm, ⟨4, _⟩ => ⟨S1, .f32⟩
  | .hbm, ⟨5, _⟩ => ⟨S117x12, .f32⟩
  | .hbm, ⟨6, _⟩ => ⟨S12, .f32⟩
  | .hbm, ⟨7, _⟩ => ⟨S12, .f32⟩
  | .hbm, ⟨8, _⟩ => ⟨S12, .f32⟩
  | .hbm, ⟨9, _⟩ => ⟨S12, .f32⟩
  | .hbm, ⟨10, _⟩ => ⟨S12, .f32⟩
  | .hbm, ⟨11, _⟩ => ⟨S12x8, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8x4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S_, .i32⟩
  | .hbm, ⟨24, _⟩ => ⟨S16384x26, .i32⟩
  | .hbm, ⟨25, _⟩ => ⟨S16384x26, .i1⟩
  | .hbm, ⟨26, _⟩ => ⟨S_, .i32⟩
  | .hbm, ⟨27, _⟩ => ⟨S16384x26, .i32⟩
  | .hbm, ⟨28, _⟩ => ⟨S16384x26, .i32⟩
  | .hbm, ⟨29, _⟩ => ⟨S16384x26, .i32⟩
  | .hbm, ⟨30, _⟩ => ⟨S16384x26x1, .i32⟩
  | .hbm, ⟨31, _⟩ => ⟨S16384x26x1, .f32⟩
  | .hbm, ⟨32, _⟩ => ⟨S16384x26, .f32⟩
  | .hbm, ⟨33, _⟩ => ⟨S_, .i32⟩
  | .hbm, ⟨34, _⟩ => ⟨S16384x26, .i32⟩
  | .hbm, ⟨35, _⟩ => ⟨S16384x26, .i1⟩
  | .hbm, ⟨36, _⟩ => ⟨S_, .i32⟩
  | .hbm, ⟨37, _⟩ => ⟨S16384x26, .i32⟩
  | .hbm, ⟨38, _⟩ => ⟨S16384x26, .i32⟩
  | .hbm, ⟨39, _⟩ => ⟨S16384x26, .i32⟩
  | .hbm, ⟨40, _⟩ => ⟨S16384x26x1, .i32⟩
  | .hbm, ⟨41, _⟩ => ⟨S16384x26x4, .f32⟩
  | .hbm, ⟨42, _⟩ => ⟨S16384x1, .f32⟩
  | .hbm, ⟨43, _⟩ => ⟨S16384, .f32⟩
  | .local _ .vmem, ⟨0, _⟩ => ⟨S1024x26x4, .f32⟩
  | .local _ .vmem, ⟨1, _⟩ => ⟨S1024x26x4, .f32⟩
  | .local _ .vmem, ⟨2, _⟩ => ⟨S1024x26, .f32⟩
  | .local _ .vmem, ⟨3, _⟩ => ⟨S1024x26, .f32⟩
  | .local _ .vmem, ⟨4, _⟩ => ⟨S1024x13, .f32⟩
  | .local _ .vmem, ⟨5, _⟩ => ⟨S1024x13, .f32⟩
  | .local _ .vmem, ⟨6, _⟩ => ⟨S117x12, .f32⟩
  | .local _ .vmem, ⟨7, _⟩ => ⟨S12, .f32⟩
  | .local _ .vmem, ⟨8, _⟩ => ⟨S12, .f32⟩
  | .local _ .vmem, ⟨9, _⟩ => ⟨S12, .f32⟩
  | .local _ .vmem, ⟨10, _⟩ => ⟨S12, .f32⟩
  | .local _ .vmem, ⟨11, _⟩ => ⟨S12, .f32⟩
  | .local _ .vmem, ⟨12, _⟩ => ⟨S12x8, .f32⟩
  | .local _ .vmem, ⟨13, _⟩ => ⟨S8, .f32⟩
  | .local _ .vmem, ⟨14, _⟩ => ⟨S8, .f32⟩
  | .local _ .vmem, ⟨15, _⟩ => ⟨S8, .f32⟩
  | .local _ .vmem, ⟨16, _⟩ => ⟨S8, .f32⟩
  | .local _ .vmem, ⟨17, _⟩ => ⟨S8, .f32⟩
  | .local _ .vmem, ⟨18, _⟩ => ⟨S8x4, .f32⟩
  | .local _ .vmem, ⟨19, _⟩ => ⟨S4, .f32⟩
  | .local _ .vmem, ⟨20, _⟩ => ⟨S4, .f32⟩
  | .local _ .vmem, ⟨21, _⟩ => ⟨S4, .f32⟩
  | .local _ .vmem, ⟨22, _⟩ => ⟨S4, .f32⟩
  | .local _ .vmem, ⟨23, _⟩ => ⟨S4, .f32⟩
  | .local _ .vmem, ⟨24, _⟩ => ⟨S1, .f32⟩
  | .local _ .vmem, ⟨25, _⟩ => ⟨S1024x1, .f32⟩
  | .local _ .vmem, ⟨26, _⟩ => ⟨S1024x1, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_v8 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg22_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem22_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x26x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x26 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S117x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S12x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1024x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  shapeCasts_S16384x26x1_S16384x26 : S16384x26x1.ShapeCasts S16384x26
  inb_S1024x26x4_S1024x26x4_0_0_0 : ∀ a, (![0, 0, 0] : Fin 3 → Nat) a + S1024x26x4.size a ≤ S1024x26x4.size a
  h_S1024x26x4 : 0 < S1024x26x4.numel
  shapeCasts_S1024x26x4_S1024x26x4 : S1024x26x4.ShapeCasts S1024x26x4
  reduces_S1024x26x4_S1024x4 : S1024x26x4.Reduces [1] S1024x4
  reduces_S1024x4_S1024 : S1024x4.Reduces [1] S1024
  shapeCasts_S1024_S1024x1 : S1024.ShapeCasts S1024x1
  inb_S1024x26_S1024x26_0_0 : ∀ a, (![0, 0] : Fin 2 → Nat) a + S1024x26.size a ≤ S1024x26.size a
  h_S1024x26 : 0 < S1024x26.numel
  shapeCasts_S1024x26_S1024x26 : S1024x26.ShapeCasts S1024x26
  reduces_S1024x26_S1024 : S1024x26.Reduces [1] S1024
  shapeCasts_S1024x26x4_S1024x104 : S1024x26x4.ShapeCasts S1024x104
  inb_S1024x13_S1024x13_0_0 : ∀ a, (![0, 0] : Fin 2 → Nat) a + S1024x13.size a ≤ S1024x13.size a
  h_S1024x13 : 0 < S1024x13.numel
  concatenates_S1024x104_S1024x13_S1024x117_d1 : Shape.Concatenates [S1024x104, S1024x13] S1024x117 1
  bitsLt_bf16_f32 : FTy.bits .bf16 < FTy.bits .f32
  inb_S117x12_S117x12_0_0 : ∀ a, (![0, 0] : Fin 2 → Nat) a + S117x12.size a ≤ S117x12.size a
  h_S117x12 : 0 < S117x12.numel
  inb_S12_S12_0 : ∀ a, (![0] : Fin 1 → Nat) a + S12.size a ≤ S12.size a
  h_S12 : 0 < S12.numel
  shapeCasts_S12_S1x12 : S12.ShapeCasts S1x12
  broadcasts_S1x12_S1024x12 : S1x12.Broadcasts S1024x12
  inb_S12x8_S12x8_0_0 : ∀ a, (![0, 0] : Fin 2 → Nat) a + S12x8.size a ≤ S12x8.size a
  h_S12x8 : 0 < S12x8.numel
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  inb_S8x4_S8x4_0_0 : ∀ a, (![0, 0] : Fin 2 → Nat) a + S8x4.size a ≤ S8x4.size a
  h_S8x4 : 0 < S8x4.numel
  inb_S4_S4_0 : ∀ a, (![0] : Fin 1 → Nat) a + S4.size a ≤ S4.size a
  h_S4 : 0 < S4.numel
  shapeCasts_S4_S1x4 : S4.ShapeCasts S1x4
  broadcasts_S1x4_S1024x4 : S1x4.Broadcasts S1024x4
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S16384x1_S16384 : S16384x1.ShapeCasts S16384
  gather_S10400000x1_S16384x26x1_S16384x26x1_2_0_n_n_0_2_11_wf : GatherDims.WF S10400000x1 S16384x26x1 S16384x26x1 [2] [0] [] [0] [] 2 ![1, 1]
  gather_S10400000x4_S16384x26x1_S16384x26x4_2_0_n_n_0_2_14_wf : GatherDims.WF S10400000x4 S16384x26x1 S16384x26x4 [2] [0] [] [0] [] 2 ![1, 4]
  dot_S1024x117_S117x12_S1024x12_1_0_0_1_n_n_wf : DotDims.WF S1024x117 S117x12 S1024x12 [1] [0] [0] [1] [] []
  dot_S1024x12_S12x8_S1024x8_1_0_0_1_n_n_wf : DotDims.WF S1024x12 S12x8 S1024x8 [1] [0] [0] [1] [] []
  dot_S1024x8_S8x4_S1024x4_1_0_0_1_n_n_wf : DotDims.WF S1024x8 S8x4 S1024x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x26x4.size a ≤ S16384x26x4.size a
  hwx0_0 : ∀ i : grid0.Coords, EltTy.bits .f32 = 32 ∨ (Rect.block (s := S16384x26x4) S1024x26x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x26.size a ≤ S16384x26.size a
  hwx0_1 : ∀ i : grid0.Coords, EltTy.bits .f32 = 32 ∨ (Rect.block (s := S16384x26) S1024x26.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x13.size a ≤ S16384x13.size a
  hwx0_2 : ∀ i : grid0.Coords, EltTy.bits .f32 = 32 ∨ (Rect.block (s := S16384x13) S1024x13.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S117x12.size a ≤ S117x12.size a
  hwx0_3 : ∀ i : grid0.Coords, EltTy.bits .f32 = 32 ∨ (Rect.block (s := S117x12) S117x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12.size a ≤ S12.size a
  hwx0_4 : ∀ i : grid0.Coords, EltTy.bits .f32 = 32 ∨ (Rect.block (s := S12) S12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12.size a ≤ S12.size a
  hwx0_5 : ∀ i : grid0.Coords, EltTy.bits .f32 = 32 ∨ (Rect.block (s := S12) S12.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12.size a ≤ S12.size a
  hwx0_6 : ∀ i : grid0.Coords, EltTy.bits .f32 = 32 ∨ (Rect.block (s := S12) S12.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S12.size a ≤ S12.size a
  hwx0_7 : ∀ i : grid0.Coords, EltTy.bits .f32 = 32 ∨ (Rect.block (s := S12) S12.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S12.size a ≤ S12.size a
  hwx0_8 : ∀ i : grid0.Coords, EltTy.bits .f32 = 32 ∨ (Rect.block (s := S12) S12.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S12x8.size a ≤ S12x8.size a
  hwx0_9 : ∀ i : grid0.Coords, EltTy.bits .f32 = 32 ∨ (Rect.block (s := S12x8) S12x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8.size a ≤ S8.size a
  hwx0_10 : ∀ i : grid0.Coords, EltTy.bits .f32 = 32 ∨ (Rect.block (s := S8) S8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8.size a ≤ S8.size a
  hwx0_11 : ∀ i : grid0.Coords, EltTy.bits .f32 = 32 ∨ (Rect.block (s := S8) S8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8.size a ≤ S8.size a
  hwx0_12 : ∀ i : grid0.Coords, EltTy.bits .f32 = 32 ∨ (Rect.block (s := S8) S8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8.size a ≤ S8.size a
  hwx0_13 : ∀ i : grid0.Coords, EltTy.bits .f32 = 32 ∨ (Rect.block (s := S8) S8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S8.size a ≤ S8.size a
  hwx0_14 : ∀ i : grid0.Coords, EltTy.bits .f32 = 32 ∨ (Rect.block (s := S8) S8.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S8x4.size a ≤ S8x4.size a
  hwx0_15 : ∀ i : grid0.Coords, EltTy.bits .f32 = 32 ∨ (Rect.block (s := S8x4) S8x4.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S4.size a ≤ S4.size a
  hwx0_16 : ∀ i : grid0.Coords, EltTy.bits .f32 = 32 ∨ (Rect.block (s := S4) S4.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S4.size a ≤ S4.size a
  hwx0_17 : ∀ i : grid0.Coords, EltTy.bits .f32 = 32 ∨ (Rect.block (s := S4) S4.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S4.size a ≤ S4.size a
  hwx0_18 : ∀ i : grid0.Coords, EltTy.bits .f32 = 32 ∨ (Rect.block (s := S4) S4.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S4.size a ≤ S4.size a
  hwx0_19 : ∀ i : grid0.Coords, EltTy.bits .f32 = 32 ∨ (Rect.block (s := S4) S4.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S4.size a ≤ S4.size a
  hwx0_20 : ∀ i : grid0.Coords, EltTy.bits .f32 = 32 ∨ (Rect.block (s := S4) S4.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1.size a ≤ S1.size a
  hwx0_21 : ∀ i : grid0.Coords, EltTy.bits .f32 = 32 ∨ (Rect.block (s := S1) S1.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1024x1.size a ≤ S16384x1.size a
  hwx0_22 : ∀ i : grid0.Coords, EltTy.bits .f32 = 32 ∨ (Rect.block (s := S16384x1) S1024x1.size (cc0_transform_22 i) (hinb0_22 i)).WholeWords (EltTy.packing .f32)

variable [Facts₀]

def gather_S10400000x1_S16384x26x1_S16384x26x1_2_0_n_n_0_2_11 : GatherDims S10400000x1 S16384x26x1 S16384x26x1 where
  offsetDims := [2]
  collapsedSliceDims := [0]
  operandBatchingDims := []
  startIndicesBatchingDims := []
  startIndexMap := [0]
  indexVectorDim := 2
  sliceSizes := ![1, 1]
  wf := gather_S10400000x1_S16384x26x1_S16384x26x1_2_0_n_n_0_2_11_wf
def gather_S10400000x4_S16384x26x1_S16384x26x4_2_0_n_n_0_2_14 : GatherDims S10400000x4 S16384x26x1 S16384x26x4 where
  offsetDims := [2]
  collapsedSliceDims := [0]
  operandBatchingDims := []
  startIndicesBatchingDims := []
  startIndexMap := [0]
  indexVectorDim := 2
  sliceSizes := ![1, 4]
  wf := gather_S10400000x4_S16384x26x1_S16384x26x4_2_0_n_n_0_2_14_wf
def dot_S1024x117_S117x12_S1024x12_1_0_0_1_n_n : DotDims S1024x117 S117x12 S1024x12 where
  lhsContracting := [1]
  rhsContracting := [0]
  lhsNonContracting := [0]
  rhsNonContracting := [1]
  lhsBatch := []
  rhsBatch := []
  wf := dot_S1024x117_S117x12_S1024x12_1_0_0_1_n_n_wf
def dot_S1024x12_S12x8_S1024x8_1_0_0_1_n_n : DotDims S1024x12 S12x8 S1024x8 where
  lhsContracting := [1]
  rhsContracting := [0]
  lhsNonContracting := [0]
  rhsNonContracting := [1]
  lhsBatch := []
  rhsBatch := []
  wf := dot_S1024x12_S12x8_S1024x8_1_0_0_1_n_n_wf
def dot_S1024x8_S8x4_S1024x4_1_0_0_1_n_n : DotDims S1024x8 S8x4 S1024x4 where
  lhsContracting := [1]
  rhsContracting := [0]
  lhsNonContracting := [0]
  rhsNonContracting := [1]
  lhsBatch := []
  rhsBatch := []
  wf := dot_S1024x8_S8x4_S1024x4_1_0_0_1_n_n_wf

abbrev win0_0 : Pipeline.Window sig grid0 :=
  Pipeline.Window.ofSpec (Memref.whole main_v14) S1024x26x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x26.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x13.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S117x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S12.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S12.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S12.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S12x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S8.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg17) S8x4.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg18) S4.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg19) S4.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg20) S4.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg21) S4.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg22) S4.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg4) S1.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v15) S1024x1.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S16384x26 : Shape := ⟨2, ![16384, 26]⟩
abbrev S16384x13 : Shape := ⟨2, ![16384, 13]⟩
abbrev S10400000x1 : Shape := ⟨2, ![10400000, 1]⟩
abbrev S10400000x4 : Shape := ⟨2, ![10400000, 4]⟩
abbrev S1 : Shape := ⟨1, ![1]⟩
abbrev S117x12 : Shape := ⟨2, ![117, 12]⟩
abbrev S12 : Shape := ⟨1, ![12]⟩
abbrev S12x8 : Shape := ⟨2, ![12, 8]⟩
abbrev S8 : Shape := ⟨1, ![8]⟩
abbrev S8x4 : Shape := ⟨2, ![8, 4]⟩
abbrev S4 : Shape := ⟨1, ![4]⟩
abbrev S425984 : Shape := ⟨1, ![425984]⟩
abbrev S_ : Shape := ⟨0, ![]⟩
abbrev S425984x1 : Shape := ⟨2, ![425984, 1]⟩
abbrev S425984x4 : Shape := ⟨2, ![425984, 4]⟩
abbrev S16384x26x4 : Shape := ⟨3, ![16384, 26, 4]⟩
abbrev S16384x4 : Shape := ⟨2, ![16384, 4]⟩
abbrev S16384x104 : Shape := ⟨2, ![16384, 104]⟩
abbrev S16384x117 : Shape := ⟨2, ![16384, 117]⟩
abbrev S16384x12 : Shape := ⟨2, ![16384, 12]⟩
abbrev S1x12 : Shape := ⟨2, ![1, 12]⟩
abbrev S16384x8 : Shape := ⟨2, ![16384, 8]⟩
abbrev S1x8 : Shape := ⟨2, ![1, 8]⟩
abbrev S1x4 : Shape := ⟨2, ![1, 4]⟩
abbrev S16384 : Shape := ⟨1, ![16384]⟩

abbrev nBuf : Space → Nat
  | .hbm => 144
  | .vmem => 0
  | .smem => 0
  | _ => 0

abbrev hbmTy0_0 (i : Nat) : BufTy := match i % 128 with
  | 0 => ⟨S16384x26, .i32⟩
  | 1 => ⟨S16384x13, .f32⟩
  | 2 => ⟨S10400000x1, .f32⟩
  | 3 => ⟨S10400000x4, .f32⟩
  | 4 => ⟨S1, .f32⟩
  | 5 => ⟨S117x12, .f32⟩
  | 6 => ⟨S12, .f32⟩
  | 7 => ⟨S12, .f32⟩
  | 8 => ⟨S12, .f32⟩
  | 9 => ⟨S12, .f32⟩
  | 10 => ⟨S12, .f32⟩
  | 11 => ⟨S12x8, .f32⟩
  | 12 => ⟨S8, .f32⟩
  | 13 => ⟨S8, .f32⟩
  | 14 => ⟨S8, .f32⟩
  | 15 => ⟨S8, .f32⟩
  | 16 => ⟨S8, .f32⟩
  | 17 => ⟨S8x4, .f32⟩
  | 18 => ⟨S4, .f32⟩
  | 19 => ⟨S4, .f32⟩
  | 20 => ⟨S4, .f32⟩
  | 21 => ⟨S4, .f32⟩
  | 22 => ⟨S4, .f32⟩
  | 23 => ⟨S425984, .i32⟩
  | 24 => ⟨S_, .i32⟩
  | 25 => ⟨S425984, .i32⟩
  | 26 => ⟨S425984, .i1⟩
  | 27 => ⟨S_, .i32⟩
  | 28 => ⟨S425984, .i32⟩
  | 29 => ⟨S425984, .i32⟩
  | 30 => ⟨S425984, .i32⟩
  | 31 => ⟨S425984x1, .i32⟩
  | 32 => ⟨S425984x1, .f32⟩
  | 33 => ⟨S16384x26, .f32⟩
  | 34 => ⟨S_, .i32⟩
  | 35 => ⟨S425984, .i32⟩
  | 36 => ⟨S425984, .i1⟩
  | 37 => ⟨S_, .i32⟩
  | 38 => ⟨S425984, .i32⟩
  | 39 => ⟨S425984, .i32⟩
  | 40 => ⟨S425984, .i32⟩
  | 41 => ⟨S425984x1, .i32⟩
  | 42 => ⟨S425984x4, .f32⟩
  | 43 => ⟨S16384x26x4, .f32⟩
  | 44 => ⟨S_, .f32⟩
  | 45 => ⟨S16384x4, .f32⟩
  | 46 => ⟨S16384x4, .f32⟩
  | 47 => ⟨S16384x26x4, .f32⟩
  | 48 => ⟨S_, .f32⟩
  | 49 => ⟨S16384x4, .f32⟩
  | 50 => ⟨S16384x4, .f32⟩
  | 51 => ⟨S_, .f32⟩
  | 52 => ⟨S16384x4, .f32⟩
  | 53 => ⟨S16384x4, .f32⟩
  | 54 => ⟨S16384x104, .f32⟩
  | 55 => ⟨S16384x117, .f32⟩
  | 56 => ⟨S16384x12, .f32⟩
  | 57 => ⟨S1x12, .f32⟩
  | 58 => ⟨S16384x12, .f32⟩
  | 59 => ⟨S16384x12, .f32⟩
  | 60 => ⟨S1x12, .f32⟩
  | 61 => ⟨S16384x12, .f32⟩
  | 62 => ⟨S16384x12, .f32⟩
  | 63 => ⟨S_, .f32⟩
  | 64 => ⟨S12, .f32⟩
  | 65 => ⟨S12, .f32⟩
  | 66 => ⟨S12, .f32⟩
  | 67 => ⟨S1x12, .f32⟩
  | 68 => ⟨S16384x12, .f32⟩
  | 69 => ⟨S16384x12, .f32⟩
  | 70 => ⟨S1x12, .f32⟩
  | 71 => ⟨S16384x12, .f32⟩
  | 72 => ⟨S16384x12, .f32⟩
  | 73 => ⟨S1x12, .f32⟩
  | 74 => ⟨S16384x12, .f32⟩
  | 75 => ⟨S16384x12, .f32⟩
  | 76 => ⟨S_, .f32⟩
  | 77 => ⟨S16384x12, .f32⟩
  | 78 => ⟨S16384x12, .f32⟩
  | 79 => ⟨S16384x8, .f32⟩
  | 80 => ⟨S1x8, .f32⟩
  | 81 => ⟨S16384x8, .f32⟩
  | 82 => ⟨S16384x8, .f32⟩
  | 83 => ⟨S1x8, .f32⟩
  | 84 => ⟨S16384x8, .f32⟩
  | 85 => ⟨S16384x8, .f32⟩
  | 86 => ⟨S_, .f32⟩
  | 87 => ⟨S8, .f32⟩
  | 88 => ⟨S8, .f32⟩
  | 89 => ⟨S8, .f32⟩
  | 90 => ⟨S1x8, .f32⟩
  | 91 => ⟨S16384x8, .f32⟩
  | 92 => ⟨S16384x8, .f32⟩
  | 93 => ⟨S1x8, .f32⟩
  | 94 => ⟨S16384x8, .f32⟩
  | 95 => ⟨S16384x8, .f32⟩
  | 96 => ⟨S1x8, .f32⟩
  | 97 => ⟨S16384x8, .f32⟩
  | 98 => ⟨S16384x8, .f32⟩
  | 99 => ⟨S_, .f32⟩
  | 100 => ⟨S16384x8, .f32⟩
  | 101 => ⟨S16384x8, .f32⟩
  | 102 => ⟨S16384x4, .f32⟩
  | 103 => ⟨S1x4, .f32⟩
  | 104 => ⟨S16384x4, .f32⟩
  | 105 => ⟨S16384x4, .f32⟩
  | 106 => ⟨S1x4, .f32⟩
  | 107 => ⟨S16384x4, .f32⟩
  | 108 => ⟨S16384x4, .f32⟩
  | 109 => ⟨S_, .f32⟩
  | 110 => ⟨S4, .f32⟩
  | 111 => ⟨S4, .f32⟩
  | 112 => ⟨S4, .f32⟩
  | 113 => ⟨S1x4, .f32⟩
  | 114 => ⟨S16384x4, .f32⟩
  | 115 => ⟨S16384x4, .f32⟩
  | 116 => ⟨S1x4, .f32⟩
  | 117 => ⟨S16384x4, .f32⟩
  | 118 => ⟨S16384x4, .f32⟩
  | 119 => ⟨S1x4, .f32⟩
  | 120 => ⟨S16384x4, .f32⟩
  | 121 => ⟨S16384x4, .f32⟩
  | 122 => ⟨S_, .f32⟩
  | 123 => ⟨S16384x4, .f32⟩
  | 124 => ⟨S16384x4, .f32⟩
  | 125 => ⟨S_, .f32⟩
  | 126 => ⟨S16384, .f32⟩
  | 127 => ⟨S_, .f32⟩
  | _ => ⟨S16384x26, .i32⟩

abbrev hbmTy0_1 (i : Nat) : BufTy := match i % 128 with
  | 0 => ⟨S16384, .f32⟩
  | 1 => ⟨S16384, .f32⟩
  | 2 => ⟨S_, .f32⟩
  | 3 => ⟨S16384, .f32⟩
  | 4 => ⟨S16384, .f32⟩
  | 5 => ⟨S_, .f32⟩
  | 6 => ⟨S16384, .f32⟩
  | 7 => ⟨S16384, .f32⟩
  | 8 => ⟨S16384, .f32⟩
  | 9 => ⟨S16384, .f32⟩
  | 10 => ⟨S_, .f32⟩
  | 11 => ⟨S16384, .f32⟩
  | 12 => ⟨S16384, .f32⟩
  | 13 => ⟨S_, .f32⟩
  | 14 => ⟨S16384, .f32⟩
  | 15 => ⟨S16384, .f32⟩
  | _ => ⟨S16384x26, .i32⟩

abbrev hbmTy (i : Nat) : BufTy := match i / 128 with
  | 0 => hbmTy0_0 i
  | 1 => hbmTy0_1 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_c : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c_1 : Ref sig .tc := ⟨.hbm, 34, rfl⟩
abbrev main_v9 : Ref sig .tc := ⟨.hbm, 35, rfl⟩
abbrev main_v10 : Ref sig .tc := ⟨.hbm, 36, rfl⟩
abbrev main_c_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_v21 : Ref sig .tc := ⟨.hbm, 50, rfl⟩
abbrev main_cst_4 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call0_cst : Ref sig .tc := ⟨.hbm, 76, rfl⟩
abbrev main_call0_v0 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_6 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_call1_cst : Ref sig .tc := ⟨.hbm, 99, rfl⟩
abbrev main_call1_v0 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_7 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call2_cst : Ref sig .tc := ⟨.hbm, 122, rfl⟩
abbrev main_call2_v0 : Ref sig .tc := ⟨.hbm, 123, rfl⟩
abbrev main_v85 : Ref sig .tc := ⟨.hbm, 124, rfl⟩
abbrev main_cst_8 : Ref sig .tc := ⟨.hbm, 125, rfl⟩
abbrev main_v86 : Ref sig .tc := ⟨.hbm, 126, rfl⟩
abbrev main_cst_9 : Ref sig .tc := ⟨.hbm, 127, rfl⟩
abbrev main_v87 : Ref sig .tc := ⟨.hbm, 128, rfl⟩
abbrev main_v88 : Ref sig .tc := ⟨.hbm, 129, rfl⟩
abbrev main_cst_10 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_11 : Ref sig .tc := ⟨.hbm, 138, rfl⟩
abbrev main_v96 : Ref sig .tc := ⟨.hbm, 139, rfl⟩
abbrev main_v97 : Ref sig .tc := ⟨.hbm, 140, rfl⟩
abbrev main_cst_12 : Ref sig .tc := ⟨.hbm, 141, rfl⟩
abbrev main_v98 : Ref sig .tc := ⟨.hbm, 142, rfl⟩
abbrev main_v99 : Ref sig .tc := ⟨.hbm, 143, rfl⟩

abbrev nD : Nat := 1
abbrev τ : Topo := Topo.v7x

variable {F : FTy → Type} [FloatOps F]

class Facts₀ : Prop where
  shapeCasts_S16384x26_S425984 : S16384x26.ShapeCasts S425984
  bcast_S_S425984 : S_.BroadcastsInDim S425984 (![] : Fin 0 → Fin S425984.rank)
  bcast_S425984_S425984x1_0 : S425984.BroadcastsInDim S425984x1 (![0] : Fin 1 → Fin S425984x1.rank)
  shapeCasts_S425984x1_S16384x26 : S425984x1.ShapeCasts S16384x26
  shapeCasts_S425984x4_S16384x26x4 : S425984x4.ShapeCasts S16384x26x4
  reducesTo_S16384x26x4_S16384x4_d1 : S16384x26x4.ReducesTo [1] S16384x4
  h_S_ : 0 < S_.numel
  bcast_S_S16384x4 : S_.BroadcastsInDim S16384x4 (![] : Fin 0 → Fin S16384x4.rank)
  shapeCasts_S16384x26x4_S16384x104 : S16384x26x4.ShapeCasts S16384x104
  concatenates_S16384x104_S16384x13_S16384x117_d1 : Shape.Concatenates [S16384x104, S16384x13] S16384x117 1
  bcast_S12_S1x12_1 : S12.BroadcastsInDim S1x12 (![1] : Fin 1 → Fin S1x12.rank)
  bcast_S1x12_S16384x12_0_1 : S1x12.BroadcastsInDim S16384x12 (![0, 1] : Fin 2 → Fin S16384x12.rank)
  bcast_S_S12 : S_.BroadcastsInDim S12 (![] : Fin 0 → Fin S12.rank)
  bcast_S_S16384x12 : S_.BroadcastsInDim S16384x12 (![] : Fin 0 → Fin S16384x12.rank)
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S8 : S_.BroadcastsInDim S8 (![] : Fin 0 → Fin S8.rank)
  bcast_S_S16384x8 : S_.BroadcastsInDim S16384x8 (![] : Fin 0 → Fin S16384x8.rank)
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  bcast_S_S4 : S_.BroadcastsInDim S4 (![] : Fin 0 → Fin S4.rank)
  reducesTo_S16384x26_S16384_d1 : S16384x26.ReducesTo [1] S16384
  reducesTo_S16384x4_S16384_d1 : S16384x4.ReducesTo [1] S16384
  shapeCasts_S1_S_ : S1.ShapeCasts S_
  bcast_S_S16384 : S_.BroadcastsInDim S16384 (![] : Fin 0 → Fin S16384.rank)
  gather_S10400000x1_S425984x1_S425984x1_1_0_n_n_0_1_11_wf : GatherDims.WF S10400000x1 S425984x1 S425984x1 [1] [0] [] [0] [] 1 ![1, 1]
  gather_S10400000x4_S425984x1_S425984x4_1_0_n_n_0_1_14_wf : GatherDims.WF S10400000x4 S425984x1 S425984x4 [1] [0] [] [0] [] 1 ![1, 4]
  dot_S16384x117_S117x12_S16384x12_1_0_0_1_n_n_wf : DotDims.WF S16384x117 S117x12 S16384x12 [1] [0] [0] [1] [] []
  dot_S16384x12_S12x8_S16384x8_1_0_0_1_n_n_wf : DotDims.WF S16384x12 S12x8 S16384x8 [1] [0] [0] [1] [] []
  dot_S16384x8_S8x4_S16384x4_1_0_0_1_n_n_wf : DotDims.WF S16384x8 S8x4 S16384x4 [1] [0] [0] [1] [] []

variable [Facts₀]

def gather_S10400000x1_S425984x1_S425984x1_1_0_n_n_0_1_11 : GatherDims S10400000x1 S425984x1 S425984x1 where
  offsetDims := [1]
  collapsedSliceDims := [0]
  operandBatchingDims := []
  startIndicesBatchingDims := []
  startIndexMap := [0]
  indexVectorDim := 1
  sliceSizes := ![1, 1]
  wf := gather_S10400000x1_S425984x1_S425984x1_1_0_n_n_0_1_11_wf
def gather_S10400000x4_S425984x1_S425984x4_1_0_n_n_0_1_14 : GatherDims S10400000x4 S425984x1 S425984x4 where
  offsetDims := [1]
  collapsedSliceDims := [0]
  operandBatchingDims := []
  startIndicesBatchingDims := []
  startIndexMap := [0]
  indexVectorDim := 1
  sliceSizes := ![1, 4]
  wf := gather_S10400000x4_S425984x1_S425984x4_1_0_n_n_0_1_14_wf
def dot_S16384x117_S117x12_S16384x12_1_0_0_1_n_n : DotDims S16384x117 S117x12 S16384x12 where
  lhsContracting := [1]
  rhsContracting := [0]
  lhsNonContracting := [0]
  rhsNonContracting := [1]
  lhsBatch := []
  rhsBatch := []
  wf := dot_S16384x117_S117x12_S16384x12_1_0_0_1_n_n_wf
def dot_S16384x12_S12x8_S16384x8_1_0_0_1_n_n : DotDims S16384x12 S12x8 S16384x8 where
  lhsContracting := [1]
  rhsContracting := [0]
  lhsNonContracting := [0]
  rhsNonContracting := [1]
  lhsBatch := []
  rhsBatch := []
  wf := dot_S16384x12_S12x8_S16384x8_1_0_0_1_n_n_wf
def dot_S16384x8_S8x4_S16384x4_1_0_0_1_n_n : DotDims S16384x8 S8x4 S16384x4 where
  lhsContracting := [1]
  rhsContracting := [0]
  lhsNonContracting := [0]
  rhsNonContracting := [1]
  lhsBatch := []
  rhsBatch := []
  wf := dot_S16384x8_S8x4_S16384x4_1_0_0_1_n_n_wf

class Facts : Prop extends Facts₀ where

variable [Facts]
-- ==== Proof.FmRow.lean ====
/-
  The value both programs compute for one batch row, as a function on the extended reals.

  A row has 26 categorical fields. Each field selects one row of a first-order table (a scalar) and one row of a
  second-order table (a 4-vector); the row also carries 13 dense features. With `E f e` the selected 4-vectors,
  `A f` the selected scalars and `X j` the dense features, the row's value is

      logistic ( Σ_f A f  +  Σ_e ½ · ((Σ_f E f e)² − Σ_f (E f e)²)  +  Σ_j h₃ j  +  bias )

  where h₃ is the output of three dense layers applied to the 117 numbers `deep E X` (the 104 entries of E in
  row-major order followed by X), each layer an affine map followed by a normalisation with running statistics,
  `(s − μ) · (σ² + ε)^(-1/2) · γ + β`, and a rectification `max · 0`. The two constants ½ and ε are kept as the
  binary32 words both programs print; they are never evaluated. Every sum is a finite sum in the commutative
  monoid of the extended reals, so no grouping or order of the summands matters.
-/
import Idealize.ShloMosaic.PureOps.Ideal

noncomputable section

namespace Cert.FmRow

open Idealize.ShloMosaic

/-- The variance offset ε of the normalisation, as the binary32 word both programs print (about 1e-5). -/
def eps : EReal := Ideal.ofBits .f32 0x3727C5AC#32

/-- The factor ½ of the pairwise interaction, as the binary32 word both programs print. -/
def half : EReal := Ideal.ofBits .f32 0x3F000000#32

/-- One normalised, rectified unit: `max ((s − μ) · (σ² + ε)^(-1/2) · γ + β) 0`. -/
def unit (s mu var g be : EReal) : EReal :=
  max ((s - mu) * Ideal.rsqrt (var + eps) * g + be) 0

/-- Output `j` of one dense layer with `K` inputs: the affine map `Σ_k inp k · w k j + b j`, then `unit`. -/
def layer {K J : Nat} (inp : Fin K → EReal) (w : Fin K → Fin J → EReal) (b g be mu var : Fin J → EReal)
    (j : Fin J) : EReal :=
  unit ((∑ k : Fin K, inp k * w k j) + b j) (mu j) (var j) (g j) (be j)

/-- The 117 inputs of the first layer: entry `k < 104` is `E (k / 4) (k % 4)`, entry `104 + j` is `X j`. -/
def deep (E : Fin 26 → Fin 4 → EReal) (X : Fin 13 → EReal) (k : Fin 117) : EReal :=
  if h : k.val < 104 then E ⟨k.val / 4, by omega⟩ ⟨k.val % 4, by omega⟩
  else X ⟨k.val - 104, by omega⟩

/-- The pairwise interaction of the 26 selected 4-vectors, summed over the 4 components:
    `Σ_e ½ · ((Σ_f E f e)² − Σ_f (E f e)²)`. -/
def pairwise (E : Fin 26 → Fin 4 → EReal) : EReal :=
  ∑ e : Fin 4, half * ((∑ f : Fin 26, E f e) * (∑ f : Fin 26, E f e) - ∑ f : Fin 26, E f e * E f e)

/-- The three dense layers on `deep E X`, output unit `j` of the last. -/
def tower (E : Fin 26 → Fin 4 → EReal) (X : Fin 13 → EReal)
    (w1 : Fin 117 → Fin 12 → EReal) (b1 g1 be1 mu1 var1 : Fin 12 → EReal)
    (w2 : Fin 12 → Fin 8 → EReal) (b2 g2 be2 mu2 var2 : Fin 8 → EReal)
    (w3 : Fin 8 → Fin 4 → EReal) (b3 g3 be3 mu3 var3 : Fin 4 → EReal) (j : Fin 4) : EReal :=
  layer (layer (layer (deep E X) w1 b1 g1 be1 mu1 var1) w2 b2 g2 be2 mu2 var2) w3 b3 g3 be3 mu3 var3 j

/-- The row's value: the logistic function of first-order sum + pairwise interaction + tower sum + bias,
    added in this grouping. -/
def rowValue (E : Fin 26 → Fin 4 → EReal) (A : Fin 26 → EReal) (X : Fin 13 → EReal)
    (w1 : Fin 117 → Fin 12 → EReal) (b1 g1 be1 mu1 var1 : Fin 12 → EReal)
    (w2 : Fin 12 → Fin 8 → EReal) (b2 g2 be2 mu2 var2 : Fin 8 → EReal)
    (w3 : Fin 8 → Fin 4 → EReal) (b3 g3 be3 mu3 var3 : Fin 4 → EReal) (bias : EReal) : EReal :=
  Ideal.logistic ((((∑ f : Fin 26, A f) + pairwise E)
    + ∑ j : Fin 4, tower E X w1 b1 g1 be1 mu1 var1 w2 b2 g2 be2 mu2 var2 w3 b3 g3 be3 mu3 var3 j) + bias)

end Cert.FmRow

end
-- ==== Proof.KernelRow.lean ====
/-
  One row of the kernel body's result is the row value of that row of its input blocks.
-/
import proofs.«411649_j53068615910202_4_alg».proof.Proof.Gen.KernelIdeal.Skeleton
import proofs.«411649_j53068615910202_4_alg».proof.Proof.FmRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx

/-! ## Layout operations at an index given by coordinates -/

section Layout
variable {α : Type}

/-- A vector of length `b` made a one-row matrix, and that row repeated down `a` rows, reads at `(p, c)` the vector
    at `c`. -/
theorem rowBroadcast_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- A vector of length `a` made a one-column matrix reads at `(r, u)` the vector at `r`. -/
theorem colCast_apply {a : ℕ} (v : (⟨1, ![a]⟩ : Shape).Idx → α)
    (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A shape cast to the same shape reads the operand at the same index. -/
theorem selfCast_apply {s : Shape} (x : s.Idx → α) (h : s.ShapeCasts s) (j : s.Idx) : shapeCast s x h j = x j :=
  shapeCast_apply x h j j rfl

/-- An `[n, 26, 4]` array cast to `[n, 104]` reads, at `(r, k)`, the operand at `(r, k / 4, k % 4)`. -/
theorem flatten_apply {n : ℕ} (x : (⟨3, ![n, 26, 4]⟩ : Shape).Idx → α)
    (h : (⟨3, ![n, 26, 4]⟩ : Shape).ShapeCasts ⟨2, ![n, 104]⟩) (r : Fin n) (k : Fin 104) :
    shapeCast ⟨2, ![n, 104]⟩ x h (ix2 r k)
      = x (ix3 r (⟨k.val / 4, by omega⟩ : Fin 26) (⟨k.val % 4, by omega⟩ : Fin 4)) :=
  shapeCast_apply x h _ _ (by
    rw [Shape.rowMajor_val_three, Shape.rowMajor_val_two]
    show (r.val * 26 + k.val / 4) * 4 + k.val % 4 = r.val * 104 + k.val
    omega)

end Layout

/-! ## A sum over axis 1 at an index given by coordinates -/

/-- The sum over the columns of a matrix, at row `r`: the sum over `k` of the entries `(r, k)`. -/
theorem sumCols_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction (F := Ideal) .add [1] ⟨1, ![a]⟩ src acc h hφ hacc (ix1 r) = ∑ k : Fin b, src (ix2 r k) := by
  rw [Ideal.multiReduction_add_single]
  refine Finset.sum_congr rfl fun k _ => congrArg src ?_
  funext d
  match d with
  | ⟨0, _⟩ => rfl
  | ⟨1, _⟩ => rfl

/-- The sum over the middle axis of a rank-3 array, at `(r, e)`: the sum over `f` of the entries `(r, f, e)`. -/
theorem sumMid_apply {a b c : ℕ} (src : FVec Ideal ⟨3, ![a, b, c]⟩ .f32) (acc : BitVec 32)
    (h : (⟨3, ![a, b, c]⟩ : Shape).Reduces [1] ⟨2, ![a, c]⟩) (hφ : FKind.Formats .f32)
    (hacc : acc = FKind.add.neutral .f32 hφ) (r : Fin a) (e : Fin c) :
    multiReduction (F := Ideal) .add [1] ⟨2, ![a, c]⟩ src acc h hφ hacc (ix2 r e) = ∑ f : Fin b, src (ix3 r f e) := by
  rw [Ideal.multiReduction_add_single]
  refine Finset.sum_congr rfl fun k _ => congrArg src ?_
  funext d
  match d with
  | ⟨0, _⟩ => rfl
  | ⟨1, _⟩ => rfl
  | ⟨2, _⟩ => rfl

/-! ## The two-piece concatenation along the columns -/

section Concat
variable {α : Type}

/-- A column below 104 of the concatenation reads the first piece at that column. -/
theorem concat_left_apply (x1 : S1024x104.Idx → α) (x2 : S1024x13.Idx → α)
    (h : Shape.Concatenates [S1024x104, S1024x13] S1024x117 1) (r : Fin 1024) (k : Fin 117) (hk : k.val < 104) :
    concatenate S1024x117 1 [⟨S1024x104, x1⟩, ⟨S1024x13, x2⟩] h (ix2 r k) = x1 (ix2 r (⟨k.val, hk⟩ : Fin 104)) :=
  concatenate_pair_apply_left 1 x1 x2 h (ix2 r k) rfl _ (fun b => by
    match b with
    | ⟨0, _⟩ => rfl
    | ⟨1, _⟩ => rfl)

/-- A column from 104 on reads the second piece at that column less 104. -/
theorem concat_right_apply (x1 : S1024x104.Idx → α) (x2 : S1024x13.Idx → α)
    (h : Shape.Concatenates [S1024x104, S1024x13] S1024x117 1) (r : Fin 1024) (k : Fin 117) (hk : 104 ≤ k.val) :
    concatenate S1024x117 1 [⟨S1024x104, x1⟩, ⟨S1024x13, x2⟩] h (ix2 r k)
      = x2 (ix2 r (⟨k.val - 104, by omega⟩ : Fin 13)) :=
  concatenate_pair_apply_right 1 x1 x2 h (ix2 r k) rfl rfl _ (fun b hb => by
    match b, hb with
    | ⟨0, _⟩, _ => rfl
    | ⟨1, _⟩, hb => exact absurd rfl hb)
    (by show (k.val - 104) + 104 = k.val; omega)

end Concat

/-! ## The payload pieces at an index -/

/-- The block of selected 4-vectors, cast to its own shape, is itself. -/
theorem pay2_apply (x0 : Vec Ideal S1024x26x4 .f32) (j : S1024x26x4.Idx) : k0_pay2 (F := Ideal) x0 j = x0 j :=
  selfCast_apply x0 _ j

/-- The first-order sum of row `r`: the sum over the 26 fields of the selected scalars. -/
theorem pay4_apply (x1 : Vec Ideal S1024x26 .f32) (r : Fin 1024) (u : Fin 1) :
    k0_pay4 (F := Ideal) x1 (ix2 r u) = ∑ f : Fin 26, x1 (ix2 r f) := by
  unfold k0_pay4
  refine (colCast_apply _ _ r u).trans ((sumCols_apply _ _ _ _ _ r).trans ?_)
  exact Finset.sum_congr rfl fun f _ => selfCast_apply x1 _ _

/-- The pairwise interaction of row `r`. -/
theorem pay3_apply (x0 : Vec Ideal S1024x26x4 .f32) (r : Fin 1024) (u : Fin 1) :
    k0_pay3 (F := Ideal) x0 (ix2 r u) = FmRow.pairwise (fun f e => x0 (ix3 r f e)) := by
  unfold k0_pay3 FmRow.pairwise FmRow.half
  refine (colCast_apply _ _ r u).trans ((sumCols_apply _ _ _ _ _ r).trans ?_)
  refine Finset.sum_congr rfl fun e _ => ?_
  rw [mulf_apply, broadcast_apply, subf_apply, mulf_apply]
  erw [sumMid_apply, sumMid_apply]
  simp only [mulf_apply, pay2_apply]
  rfl

/-- The reciprocal square root of the first layer's shifted variance, at any row. -/
theorem pay6_apply (x8 : Vec Ideal S12 .f32) (r : Fin 1024) (j : Fin 12) :
    k0_pay6 (F := Ideal) x8 (ix2 r j) = Ideal.rsqrt (x8 (ix1 j) + FmRow.eps) := by
  unfold k0_pay6
  rw [rowBroadcast_apply]
  rfl

/-- The third layer's offset, at any row. -/
theorem pay8_apply (x16 : Vec Ideal S4 .f32) (r : Fin 1024) (j : Fin 4) :
    k0_pay8 (F := Ideal) x16 (ix2 r j) = x16 (ix1 j) := by
  unfold k0_pay8
  rw [rowBroadcast_apply]

/-! ## The three matrix products at an index

Each product contracts the left operand's axis 1 with the right operand's axis 0. The contraction index is a one-axis
index; the sum over it is re-indexed by its one coordinate. -/

/-- The first layer's product, [1024, 117] by [117, 12]: on its left operand's axis 0 the operand index is the output's row … -/
theorem lhs_w1_0 (i : S1024x12.Idx) (q : dot_S1024x117_S117x12_S1024x12_1_0_0_1_n_n.contr.Idx) :
    (dot_S1024x117_S117x12_S1024x12_1_0_0_1_n_n.lhsIdx i q 0).val = (i 0).val := by
  unfold DotDims.lhsIdx
  rw [dif_neg (show ¬(0 : Fin S1024x117.rank) ∈ dot_S1024x117_S117x12_S1024x12_1_0_0_1_n_n.lhsBatch by decide), dif_pos (show (0 : Fin S1024x117.rank) ∈ dot_S1024x117_S117x12_S1024x12_1_0_0_1_n_n.lhsNonContracting by decide)]
  rfl
/-- … on its axis 1 the contraction index's one coordinate … -/
theorem lhs_w1_1 (i : S1024x12.Idx) (q : dot_S1024x117_S117x12_S1024x12_1_0_0_1_n_n.contr.Idx) :
    (dot_S1024x117_S117x12_S1024x12_1_0_0_1_n_n.lhsIdx i q 1).val = (q ⟨0, by decide⟩).val :=
  dot_S1024x117_S117x12_S1024x12_1_0_0_1_n_n.lhsIdx_val_of_single rfl i q
/-- … on the right operand's axis 0 that coordinate too … -/
theorem rhs_w1_0 (i : S1024x12.Idx) (q : dot_S1024x117_S117x12_S1024x12_1_0_0_1_n_n.contr.Idx) :
    (dot_S1024x117_S117x12_S1024x12_1_0_0_1_n_n.rhsIdx i q 0).val = (q ⟨0, by decide⟩).val :=
  dot_S1024x117_S117x12_S1024x12_1_0_0_1_n_n.rhsIdx_val_of_single rfl i q
/-- … and on its axis 1 the output's column. -/
theorem rhs_w1_1 (i : S1024x12.Idx) (q : dot_S1024x117_S117x12_S1024x12_1_0_0_1_n_n.contr.Idx) :
    (dot_S1024x117_S117x12_S1024x12_1_0_0_1_n_n.rhsIdx i q 1).val = (i 1).val := by
  unfold DotDims.rhsIdx
  rw [dif_neg (show ¬(1 : Fin S117x12.rank) ∈ dot_S1024x117_S117x12_S1024x12_1_0_0_1_n_n.rhsBatch by decide), dif_pos (show (1 : Fin S117x12.rank) ∈ dot_S1024x117_S117x12_S1024x12_1_0_0_1_n_n.rhsNonContracting by decide)]
  rfl

/-- The first layer's product, [1024, 117] by [117, 12] into the zero accumulator, at `(r, j)`: the sum over `k` of left `(r, k)` times right `(k, j)`. -/
theorem matmul_w1_apply {φ₁ φ₂ : FTy} (lhs : FVec Ideal S1024x117 φ₁) (rhs : FVec Ideal S117x12 φ₂) (r : Fin 1024) (j : Fin 12) :
    matmul dot_S1024x117_S117x12_S1024x12_1_0_0_1_n_n none lhs rhs (constant (F := Ideal) S1024x12 .f32 0x00000000#32) (ix2 r j)
      = ∑ k : Fin 117, lhs (ix2 r k) * rhs (ix2 k j) := by
  simp only [matmul]
  rw [Ideal.matmul_constant_zero_apply, ← Equiv.sum_comp (contrEquiv1 dot_S1024x117_S117x12_S1024x12_1_0_0_1_n_n 117 rfl rfl).symm]
  refine Finset.sum_congr rfl fun k _ => ?_
  have hk := contrEquiv1_symm_val dot_S1024x117_S117x12_S1024x12_1_0_0_1_n_n 117 rfl rfl k
  have el : dot_S1024x117_S117x12_S1024x12_1_0_0_1_n_n.lhsIdx (ix2 r j) ((contrEquiv1 dot_S1024x117_S117x12_S1024x12_1_0_0_1_n_n 117 rfl rfl).symm k) = ix2 r k := funext fun a => Fin.ext (by
    match a with
    | ⟨0, _⟩ => exact lhs_w1_0 _ _
    | ⟨1, _⟩ => exact (lhs_w1_1 _ _).trans hk)
  have er : dot_S1024x117_S117x12_S1024x12_1_0_0_1_n_n.rhsIdx (ix2 r j) ((contrEquiv1 dot_S1024x117_S117x12_S1024x12_1_0_0_1_n_n 117 rfl rfl).symm k) = ix2 k j := funext fun a => Fin.ext (by
    match a with
    | ⟨0, _⟩ => exact (rhs_w1_0 _ _).trans hk
    | ⟨1, _⟩ => exact rhs_w1_1 _ _)
  rw [el, er]

/-- The second layer's product, [1024, 12] by [12, 8]: on its left operand's axis 0 the operand index is the output's row … -/
theorem lhs_w2_0 (i : S1024x8.Idx) (q : dot_S1024x12_S12x8_S1024x8_1_0_0_1_n_n.contr.Idx) :
    (dot_S1024x12_S12x8_S1024x8_1_0_0_1_n_n.lhsIdx i q 0).val = (i 0).val := by
  unfold DotDims.lhsIdx
  rw [dif_neg (show ¬(0 : Fin S1024x12.rank) ∈ dot_S1024x12_S12x8_S1024x8_1_0_0_1_n_n.lhsBatch by decide), dif_pos (show (0 : Fin S1024x12.rank) ∈ dot_S1024x12_S12x8_S1024x8_1_0_0_1_n_n.lhsNonContracting by decide)]
  rfl
/-- … on its axis 1 the contraction index's one coordinate … -/
theorem lhs_w2_1 (i : S1024x8.Idx) (q : dot_S1024x12_S12x8_S1024x8_1_0_0_1_n_n.contr.Idx) :
    (dot_S1024x12_S12x8_S1024x8_1_0_0_1_n_n.lhsIdx i q 1).val = (q ⟨0, by decide⟩).val :=
  dot_S1024x12_S12x8_S1024x8_1_0_0_1_n_n.lhsIdx_val_of_single rfl i q
/-- … on the right operand's axis 0 that coordinate too … -/
theorem rhs_w2_0 (i : S1024x8.Idx) (q : dot_S1024x12_S12x8_S1024x8_1_0_0_1_n_n.contr.Idx) :
    (dot_S1024x12_S12x8_S1024x8_1_0_0_1_n_n.rhsIdx i q 0).val = (q ⟨0, by decide⟩).val :=
  dot_S1024x12_S12x8_S1024x8_1_0_0_1_n_n.rhsIdx_val_of_single rfl i q
/-- … and on its axis 1 the output's column. -/
theorem rhs_w2_1 (i : S1024x8.Idx) (q : dot_S1024x12_S12x8_S1024x8_1_0_0_1_n_n.contr.Idx) :
    (dot_S1024x12_S12x8_S1024x8_1_0_0_1_n_n.rhsIdx i q 1).val = (i 1).val := by
  unfold DotDims.rhsIdx
  rw [dif_neg (show ¬(1 : Fin S12x8.rank) ∈ dot_S1024x12_S12x8_S1024x8_1_0_0_1_n_n.rhsBatch by decide), dif_pos (show (1 : Fin S12x8.rank) ∈ dot_S1024x12_S12x8_S1024x8_1_0_0_1_n_n.rhsNonContracting by decide)]
  rfl

/-- The second layer's product, [1024, 12] by [12, 8] into the zero accumulator, at `(r, j)`: the sum over `k` of left `(r, k)` times right `(k, j)`. -/
theorem matmul_w2_apply {φ₁ φ₂ : FTy} (lhs : FVec Ideal S1024x12 φ₁) (rhs : FVec Ideal S12x8 φ₂) (r : Fin 1024) (j : Fin 8) :
    matmul dot_S1024x12_S12x8_S1024x8_1_0_0_1_n_n none lhs rhs (constant (F := Ideal) S1024x8 .f32 0x00000000#32) (ix2 r j)
      = ∑ k : Fin 12, lhs (ix2 r k) * rhs (ix2 k j) := by
  simp only [matmul]
  rw [Ideal.matmul_constant_zero_apply, ← Equiv.sum_comp (contrEquiv1 dot_S1024x12_S12x8_S1024x8_1_0_0_1_n_n 12 rfl rfl).symm]
  refine Finset.sum_congr rfl fun k _ => ?_
  have hk := contrEquiv1_symm_val dot_S1024x12_S12x8_S1024x8_1_0_0_1_n_n 12 rfl rfl k
  have el : dot_S1024x12_S12x8_S1024x8_1_0_0_1_n_n.lhsIdx (ix2 r j) ((contrEquiv1 dot_S1024x12_S12x8_S1024x8_1_0_0_1_n_n 12 rfl rfl).symm k) = ix2 r k := funext fun a => Fin.ext (by
    match a with
    | ⟨0, _⟩ => exact lhs_w2_0 _ _
    | ⟨1, _⟩ => exact (lhs_w2_1 _ _).trans hk)
  have er : dot_S1024x12_S12x8_S1024x8_1_0_0_1_n_n.rhsIdx (ix2 r j) ((contrEquiv1 dot_S1024x12_S12x8_S1024x8_1_0_0_1_n_n 12 rfl rfl).symm k) = ix2 k j := funext fun a => Fin.ext (by
    match a with
    | ⟨0, _⟩ => exact (rhs_w2_0 _ _).trans hk
    | ⟨1, _⟩ => exact rhs_w2_1 _ _)
  rw [el, er]

/-- The third layer's product, [1024, 8] by [8, 4]: on its left operand's axis 0 the operand index is the output's row … -/
theorem lhs_w3_0 (i : S1024x4.Idx) (q : dot_S1024x8_S8x4_S1024x4_1_0_0_1_n_n.contr.Idx) :
    (dot_S1024x8_S8x4_S1024x4_1_0_0_1_n_n.lhsIdx i q 0).val = (i 0).val := by
  unfold DotDims.lhsIdx
  rw [dif_neg (show ¬(0 : Fin S1024x8.rank) ∈ dot_S1024x8_S8x4_S1024x4_1_0_0_1_n_n.lhsBatch by decide), dif_pos (show (0 : Fin S1024x8.rank) ∈ dot_S1024x8_S8x4_S1024x4_1_0_0_1_n_n.lhsNonContracting by decide)]
  rfl
/-- … on its axis 1 the contraction index's one coordinate … -/
theorem lhs_w3_1 (i : S1024x4.Idx) (q : dot_S1024x8_S8x4_S1024x4_1_0_0_1_n_n.contr.Idx) :
    (dot_S1024x8_S8x4_S1024x4_1_0_0_1_n_n.lhsIdx i q 1).val = (q ⟨0, by decide⟩).val :=
  dot_S1024x8_S8x4_S1024x4_1_0_0_1_n_n.lhsIdx_val_of_single rfl i q
/-- … on the right operand's axis 0 that coordinate too … -/
theorem rhs_w3_0 (i : S1024x4.Idx) (q : dot_S1024x8_S8x4_S1024x4_1_0_0_1_n_n.contr.Idx) :
    (dot_S1024x8_S8x4_S1024x4_1_0_0_1_n_n.rhsIdx i q 0).val = (q ⟨0, by decide⟩).val :=
  dot_S1024x8_S8x4_S1024x4_1_0_0_1_n_n.rhsIdx_val_of_single rfl i q
/-- … and on its axis 1 the output's column. -/
theorem rhs_w3_1 (i : S1024x4.Idx) (q : dot_S1024x8_S8x4_S1024x4_1_0_0_1_n_n.contr.Idx) :
    (dot_S1024x8_S8x4_S1024x4_1_0_0_1_n_n.rhsIdx i q 1).val = (i 1).val := by
  unfold DotDims.rhsIdx
  rw [dif_neg (show ¬(1 : Fin S8x4.rank) ∈ dot_S1024x8_S8x4_S1024x4_1_0_0_1_n_n.rhsBatch by decide), dif_pos (show (1 : Fin S8x4.rank) ∈ dot_S1024x8_S8x4_S1024x4_1_0_0_1_n_n.rhsNonContracting by decide)]
  rfl

/-- The third layer's product, [1024, 8] by [8, 4] into the zero accumulator, at `(r, j)`: the sum over `k` of left `(r, k)` times right `(k, j)`. -/
theorem matmul_w3_apply {φ₁ φ₂ : FTy} (lhs : FVec Ideal S1024x8 φ₁) (rhs : FVec Ideal S8x4 φ₂) (r : Fin 1024) (j : Fin 4) :
    matmul dot_S1024x8_S8x4_S1024x4_1_0_0_1_n_n none lhs rhs (constant (F := Ideal) S1024x4 .f32 0x00000000#32) (ix2 r j)
      = ∑ k : Fin 8, lhs (ix2 r k) * rhs (ix2 k j) := by
  simp only [matmul]
  rw [Ideal.matmul_constant_zero_apply, ← Equiv.sum_comp (contrEquiv1 dot_S1024x8_S8x4_S1024x4_1_0_0_1_n_n 8 rfl rfl).symm]
  refine Finset.sum_congr rfl fun k _ => ?_
  have hk := contrEquiv1_symm_val dot_S1024x8_S8x4_S1024x4_1_0_0_1_n_n 8 rfl rfl k
  have el : dot_S1024x8_S8x4_S1024x4_1_0_0_1_n_n.lhsIdx (ix2 r j) ((contrEquiv1 dot_S1024x8_S8x4_S1024x4_1_0_0_1_n_n 8 rfl rfl).symm k) = ix2 r k := funext fun a => Fin.ext (by
    match a with
    | ⟨0, _⟩ => exact lhs_w3_0 _ _
    | ⟨1, _⟩ => exact (lhs_w3_1 _ _).trans hk)
  have er : dot_S1024x8_S8x4_S1024x4_1_0_0_1_n_n.rhsIdx (ix2 r j) ((contrEquiv1 dot_S1024x8_S8x4_S1024x4_1_0_0_1_n_n 8 rfl rfl).symm k) = ix2 k j := funext fun a => Fin.ext (by
    match a with
    | ⟨0, _⟩ => exact (rhs_w3_0 _ _).trans hk
    | ⟨1, _⟩ => exact rhs_w3_1 _ _)
  rw [el, er]

/-! ## The remaining payload pieces at an index -/

/-- The two words the body prints, read at the extended reals: the zero word is `0`, the other two are the
    specification's constants. -/
theorem zeroWord : (Scalar.ofBits (F := Ideal) .f32 0x00000000#32 : Ideal .f32) = 0 := Ideal.ofBits_zero_f32
theorem epsWord : (Scalar.ofBits (F := Ideal) .f32 0x3727C5AC#32 : Ideal .f32) = FmRow.eps := rfl

/-- The first layer's 117 inputs of row `r`: the block of 4-vectors flattened, then the dense features. -/
theorem deep_apply (x0 : Vec Ideal S1024x26x4 .f32) (x2 : Vec Ideal S1024x13 .f32) (r : Fin 1024) (k : Fin 117) :
    concatenate S1024x117 1
        [⟨S1024x104, shapeCast S1024x104 (k0_pay2 (F := Ideal) x0) shapeCasts_S1024x26x4_S1024x104⟩, ⟨S1024x13, x2⟩]
        concatenates_S1024x104_S1024x13_S1024x117_d1 (ix2 r k)
      = FmRow.deep (fun f e => x0 (ix3 r f e)) (fun c => x2 (ix2 r c)) k := by
  unfold FmRow.deep
  by_cases hk : k.val < 104
  · rw [dif_pos hk, concat_left_apply _ _ _ r k hk, flatten_apply, pay2_apply]
  · rw [dif_neg hk, concat_right_apply _ _ _ r k (by omega)]

/-- The first layer's affine map less the running mean, at `(r, j)`. -/
theorem pay5_apply (x0 : Vec Ideal S1024x26x4 .f32) (x2 : Vec Ideal S1024x13 .f32) (x3 : Vec Ideal S117x12 .f32)
    (x4 x7 : Vec Ideal S12 .f32) (r : Fin 1024) (j : Fin 12) :
    k0_pay5 (F := Ideal) x0 x2 x3 x4 x7 (ix2 r j)
      = ((∑ k : Fin 117, FmRow.deep (fun f e => x0 (ix3 r f e)) (fun c => x2 (ix2 r c)) k * x3 (ix2 k j))
          + x4 (ix1 j)) - x7 (ix1 j) := by
  unfold k0_pay5
  rw [subf_apply, addf_apply, rowBroadcast_apply, rowBroadcast_apply, matmul_w1_apply]
  refine congrArg (fun s => s + x4 (ix1 j) - x7 (ix1 j)) (Finset.sum_congr rfl fun k _ => ?_)
  rw [truncf_apply, truncf_apply, deep_apply]

/-- The rest of the first layer, the second layer, and the third layer's product, at `(r, j)`, from the first
    layer's shifted affine map `s` and reciprocal square root `q`. -/
theorem pay7_apply (g1 be1 : Vec Ideal S12 .f32) (s q : FVec Ideal S1024x12 .f32) (w2 : Vec Ideal S12x8 .f32)
    (b2 g2 be2 mu2 var2 : Vec Ideal S8 .f32) (w3 : Vec Ideal S8x4 .f32) (r : Fin 1024) (j : Fin 4) :
    k0_pay7 (F := Ideal) g1 be1 s q w2 b2 g2 be2 mu2 var2 w3 (ix2 r j)
      = ∑ k : Fin 8,
          FmRow.unit
            ((∑ i : Fin 12, max (s (ix2 r i) * q (ix2 r i) * g1 (ix1 i) + be1 (ix1 i)) 0 * w2 (ix2 i k)) + b2 (ix1 k))
            (mu2 (ix1 k)) (var2 (ix1 k)) (g2 (ix1 k)) (be2 (ix1 k)) * w3 (ix2 k j) := by
  unfold k0_pay7
  rw [matmul_w3_apply]
  refine Finset.sum_congr rfl fun k _ => ?_
  rw [truncf_apply, truncf_apply, maximumf_apply, broadcast_apply, addf_apply, mulf_apply, mulf_apply, subf_apply,
    addf_apply, rowBroadcast_apply, rowBroadcast_apply, rowBroadcast_apply, rowBroadcast_apply, rowBroadcast_apply,
    matmul_w2_apply, zeroWord]
  unfold FmRow.unit
  refine congrArg (fun t => max ((t + b2 (ix1 k) - mu2 (ix1 k)) * _ * g2 (ix1 k) + be2 (ix1 k)) 0 * w3 (ix2 k j))
    (Finset.sum_congr rfl fun i _ => ?_)
  rw [truncf_apply, truncf_apply, maximumf_apply, broadcast_apply, addf_apply, mulf_apply, mulf_apply,
    rowBroadcast_apply, rowBroadcast_apply]

/-- The rest of the third layer, its row sum, the three-term sum with the bias, and the logistic function, at row `r`,
    from the pairwise term `p`, the first-order term `a`, the third layer's product `m` and offset `b3`. -/
theorem pay1_apply (p a : FVec Ideal S1024x1 .f32) (m b3 : FVec Ideal S1024x4 .f32) (g3 be3 mu3 var3 : Vec Ideal S4 .f32)
    (bias : Vec Ideal S1 .f32) (r : Fin 1024) (u : Fin 1) :
    k0_pay1 (F := Ideal) p a m b3 g3 be3 mu3 var3 bias (ix2 r u)
      = Ideal.logistic (((a (ix2 r u) + p (ix2 r u))
          + ∑ j : Fin 4, FmRow.unit (m (ix2 r j) + b3 (ix2 r j)) (mu3 (ix1 j)) (var3 (ix1 j)) (g3 (ix1 j)) (be3 (ix1 j)))
          + bias (ix1 u)) := by
  unfold k0_pay1
  show Ideal.logistic _ = _
  rw [addf_apply, addf_apply, addf_apply, rowBroadcast_apply, colCast_apply]
  erw [sumCols_apply]
  refine congrArg (fun t => Ideal.logistic (a (ix2 r u) + p (ix2 r u) + t + bias (ix1 u))) (Finset.sum_congr rfl fun j _ => ?_)
  rw [maximumf_apply, broadcast_apply, addf_apply, mulf_apply, mulf_apply, subf_apply, addf_apply,
    rowBroadcast_apply, rowBroadcast_apply, rowBroadcast_apply, rowBroadcast_apply, zeroWord]
  rfl

/-! ## The row -/

/-- The body's one stored value, read at row `r` of the block (its one column), is the row value of row `r` of the
    embedding, first-order and dense blocks under the parameter blocks. -/
theorem payload_row
    (x0 : Vec Ideal S1024x26x4 .f32) (x1 : Vec Ideal S1024x26 .f32) (x2 : Vec Ideal S1024x13 .f32)
    (x3 : Vec Ideal S117x12 .f32) (x4 x5 x6 x7 x8 : Vec Ideal S12 .f32)
    (x9 : Vec Ideal S12x8 .f32) (x10 x11 x12 x13 x14 : Vec Ideal S8 .f32)
    (x15 : Vec Ideal S8x4 .f32) (x16 x17 x18 x19 x20 : Vec Ideal S4 .f32) (x21 : Vec Ideal S1 .f32) (r : Fin 1024) :
    k0_pay1 (F := Ideal) (k0_pay3 x0) (k0_pay4 x1)
        (k0_pay7 x5 x6 (k0_pay5 x0 x2 x3 x4 x7) (k0_pay6 x8) x9 x10 x11 x12 x13 x14 x15) (k0_pay8 x16)
        x17 x18 x19 x20 x21 (ix2 r (0 : Fin 1))
      = FmRow.rowValue (fun f e => x0 (ix3 r f e)) (fun f => x1 (ix2 r f)) (fun j => x2 (ix2 r j))
          (fun k j => x3 (ix2 k j)) (fun j => x4 (ix1 j)) (fun j => x5 (ix1 j)) (fun j => x6 (ix1 j))
          (fun j => x7 (ix1 j)) (fun j => x8 (ix1 j))
          (fun k j => x9 (ix2 k j)) (fun j => x10 (ix1 j)) (fun j => x11 (ix1 j)) (fun j => x12 (ix1 j))
          (fun j => x13 (ix1 j)) (fun j => x14 (ix1 j))
          (fun k j => x15 (ix2 k j)) (fun j => x16 (ix1 j)) (fun j => x17 (ix1 j)) (fun j => x18 (ix1 j))
          (fun j => x19 (ix1 j)) (fun j => x20 (ix1 j)) (x21 (ix1 (0 : Fin 1))) := by
  rw [pay1_apply, pay3_apply, pay4_apply]
  simp only [pay7_apply, pay8_apply, pay5_apply, pay6_apply]
  rfl

end Cert.KernelIdeal.RowValue

end
-- ==== Proof.KernelBlocks.lean ====
/-
  The array the region leaves, as one function of the arrays the region finds.

  The region runs the body at 16 grid points. At point t the three batch windows (the selected second-order rows, the
  selected first-order entries, the dense features) hold rows t·1024 … t·1024 + 1023 of their arrays, every parameter
  window holds its whole array, and the body's one store writes block t of the [16384, 1] output. Row r of what the
  body stores is the row value of row r of its blocks, which is the row value of row t·1024 + r of the arrays; the 16
  output blocks tile the output; so the output ends holding, at (b, 0), the row value of row b of the arrays.
-/
import proofs.«411649_j53068615910202_4_alg».proof.Proof.Gen.KernelIdeal.Frame
import proofs.«411649_j53068615910202_4_alg».proof.Proof.KernelRow
import proofs.«411649_j53068615910202_4_alg».proof.Proof.FmRow
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- There are 16 grid points. -/
theorem point_lt (t : Fin cfg0.N) : t.val < 16 := by
  have h := t.isLt
  have e : cfg0.N = 16 := N_0
  omega

/-- Row `r` of the blocks at point `t` is row `t·1024 + r` of the arrays. -/
abbrev rowAt (t : Fin cfg0.N) (r : Fin 1024) : Fin 16384 := ⟨t.val * 1024 + r.val, by have := point_lt t; omega⟩

/-! ## The blocks and the arrays at their literal types -/

abbrev blk0 (c : Dev nD) (t : Fin cfg0.N) : Vec Ideal S1024x26x4 .f32 := iblk m c 0 t
abbrev blk1 (c : Dev nD) (t : Fin cfg0.N) : Vec Ideal S1024x26 .f32 := iblk m c 1 t
abbrev blk2 (c : Dev nD) (t : Fin cfg0.N) : Vec Ideal S1024x13 .f32 := iblk m c 2 t
abbrev blk3 (c : Dev nD) (t : Fin cfg0.N) : Vec Ideal S117x12 .f32 := iblk m c 3 t
abbrev blk4 (c : Dev nD) (t : Fin cfg0.N) : Vec Ideal S12 .f32 := iblk m c 4 t
abbrev blk5 (c : Dev nD) (t : Fin cfg0.N) : Vec Ideal S12 .f32 := iblk m c 5 t
abbrev blk6 (c : Dev nD) (t : Fin cfg0.N) : Vec Ideal S12 .f32 := iblk m c 6 t
abbrev blk7 (c : Dev nD) (t : Fin cfg0.N) : Vec Ideal S12 .f32 := iblk m c 7 t
abbrev blk8 (c : Dev nD) (t : Fin cfg0.N) : Vec Ideal S12 .f32 := iblk m c 8 t
abbrev blk9 (c : Dev nD) (t : Fin cfg0.N) : Vec Ideal S12x8 .f32 := iblk m c 9 t
abbrev blk10 (c : Dev nD) (t : Fin cfg0.N) : Vec Ideal S8 .f32 := iblk m c 10 t
abbrev blk11 (c : Dev nD) (t : Fin cfg0.N) : Vec Ideal S8 .f32 := iblk m c 11 t
abbrev blk12 (c : Dev nD) (t : Fin cfg0.N) : Vec Ideal S8 .f32 := iblk m c 12 t
abbrev blk13 (c : Dev nD) (t : Fin cfg0.N) : Vec Ideal S8 .f32 := iblk m c 13 t
abbrev blk14 (c : Dev nD) (t : Fin cfg0.N) : Vec Ideal S8 .f32 := iblk m c 14 t
abbrev blk15 (c : Dev nD) (t : Fin cfg0.N) : Vec Ideal S8x4 .f32 := iblk m c 15 t
abbrev blk16 (c : Dev nD) (t : Fin cfg0.N) : Vec Ideal S4 .f32 := iblk m c 16 t
abbrev blk17 (c : Dev nD) (t : Fin cfg0.N) : Vec Ideal S4 .f32 := iblk m c 17 t
abbrev blk18 (c : Dev nD) (t : Fin cfg0.N) : Vec Ideal S4 .f32 := iblk m c 18 t
abbrev blk19 (c : Dev nD) (t : Fin cfg0.N) : Vec Ideal S4 .f32 := iblk m c 19 t
abbrev blk20 (c : Dev nD) (t : Fin cfg0.N) : Vec Ideal S4 .f32 := iblk m c 20 t
abbrev blk21 (c : Dev nD) (t : Fin cfg0.N) : Vec Ideal S1 .f32 := iblk m c 21 t

abbrev arr0 (c : Dev nD) : S16384x26x4.Idx → EReal := V m c main_v14
abbrev arr1 (c : Dev nD) : S16384x26.Idx → EReal := V m c main_v7
abbrev arr2 (c : Dev nD) : S16384x13.Idx → EReal := V m c main_arg1
abbrev arr3 (c : Dev nD) : S117x12.Idx → EReal := V m c main_arg5
abbrev arr4 (c : Dev nD) : S12.Idx → EReal := V m c main_arg6
abbrev arr5 (c : Dev nD) : S12.Idx → EReal := V m c main_arg7
abbrev arr6 (c : Dev nD) : S12.Idx → EReal := V m c main_arg8
abbrev arr7 (c : Dev nD) : S12.Idx → EReal := V m c main_arg9
abbrev arr8 (c : Dev nD) : S12.Idx → EReal := V m c main_arg10
abbrev arr9 (c : Dev nD) : S12x8.Idx → EReal := V m c main_arg11
abbrev arr10 (c : Dev nD) : S8.Idx → EReal := V m c main_arg12
abbrev arr11 (c : Dev nD) : S8.Idx → EReal := V m c main_arg13
abbrev arr12 (c : Dev nD) : S8.Idx → EReal := V m c main_arg14
abbrev arr13 (c : Dev nD) : S8.Idx → EReal := V m c main_arg15
abbrev arr14 (c : Dev nD) : S8.Idx → EReal := V m c main_arg16
abbrev arr15 (c : Dev nD) : S8x4.Idx → EReal := V m c main_arg17
abbrev arr16 (c : Dev nD) : S4.Idx → EReal := V m c main_arg18
abbrev arr17 (c : Dev nD) : S4.Idx → EReal := V m c main_arg19
abbrev arr18 (c : Dev nD) : S4.Idx → EReal := V m c main_arg20
abbrev arr19 (c : Dev nD) : S4.Idx → EReal := V m c main_arg21
abbrev arr20 (c : Dev nD) : S4.Idx → EReal := V m c main_arg22
abbrev arr21 (c : Dev nD) : S1.Idx → EReal := V m c main_arg4

/-! ## Where each window's block sits: the printed index maps, decided over the 16 points -/

/-- The three batch windows and the output window sit at block `t` on the batch axis and block 0 elsewhere. -/
theorem batch_blocks : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_22.index t (0 : Fin 2) = t.val ∧ win0_22.index t (1 : Fin 2) = 0 :=
  (by decide +kernel : ∀ t : Fin grid0.N, _)

theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 1) = 0 := (by decide +kernel : ∀ t : Fin grid0.N, _)
theorem at5 : ∀ t : Fin cfg0.N, win0_5.index t (0 : Fin 1) = 0 := (by decide +kernel : ∀ t : Fin grid0.N, _)
theorem at6 : ∀ t : Fin cfg0.N, win0_6.index t (0 : Fin 1) = 0 := (by decide +kernel : ∀ t : Fin grid0.N, _)
theorem at7 : ∀ t : Fin cfg0.N, win0_7.index t (0 : Fin 1) = 0 := (by decide +kernel : ∀ t : Fin grid0.N, _)
theorem at8 : ∀ t : Fin cfg0.N, win0_8.index t (0 : Fin 1) = 0 := (by decide +kernel : ∀ t : Fin grid0.N, _)
theorem at9 : ∀ t : Fin cfg0.N, win0_9.index t (0 : Fin 2) = 0 ∧ win0_9.index t (1 : Fin 2) = 0 :=
  (by decide +kernel : ∀ t : Fin grid0.N, _)
theorem at10 : ∀ t : Fin cfg0.N, win0_10.index t (0 : Fin 1) = 0 := (by decide +kernel : ∀ t : Fin grid0.N, _)
theorem at11 : ∀ t : Fin cfg0.N, win0_11.index t (0 : Fin 1) = 0 := (by decide +kernel : ∀ t : Fin grid0.N, _)
theorem at12 : ∀ t : Fin cfg0.N, win0_12.index t (0 : Fin 1) = 0 := (by decide +kernel : ∀ t : Fin grid0.N, _)
theorem at13 : ∀ t : Fin cfg0.N, win0_13.index t (0 : Fin 1) = 0 := (by decide +kernel : ∀ t : Fin grid0.N, _)
theorem at14 : ∀ t : Fin cfg0.N, win0_14.index t (0 : Fin 1) = 0 := (by decide +kernel : ∀ t : Fin grid0.N, _)
theorem at15 : ∀ t : Fin cfg0.N, win0_15.index t (0 : Fin 2) = 0 ∧ win0_15.index t (1 : Fin 2) = 0 :=
  (by decide +kernel : ∀ t : Fin grid0.N, _)
theorem at16 : ∀ t : Fin cfg0.N, win0_16.index t (0 : Fin 1) = 0 := (by decide +kernel : ∀ t : Fin grid0.N, _)
theorem at17 : ∀ t : Fin cfg0.N, win0_17.index t (0 : Fin 1) = 0 := (by decide +kernel : ∀ t : Fin grid0.N, _)
theorem at18 : ∀ t : Fin cfg0.N, win0_18.index t (0 : Fin 1) = 0 := (by decide +kernel : ∀ t : Fin grid0.N, _)
theorem at19 : ∀ t : Fin cfg0.N, win0_19.index t (0 : Fin 1) = 0 := (by decide +kernel : ∀ t : Fin grid0.N, _)
theorem at20 : ∀ t : Fin cfg0.N, win0_20.index t (0 : Fin 1) = 0 := (by decide +kernel : ∀ t : Fin grid0.N, _)
theorem at21 : ∀ t : Fin cfg0.N, win0_21.index t (0 : Fin 1) = 0 := (by decide +kernel : ∀ t : Fin grid0.N, _)

/-! ## Each block read where it sits in its array: a block's coordinate is block index × block size + the
    coordinate inside the block -/

theorem read0 (c : Dev nD) (t : Fin cfg0.N) (r : Fin 1024) (f : Fin 26) (e : Fin 4) :
    blk0 m c t (ix3 r f e) = arr0 m c (ix3 (rowAt t r) f e) := by
  obtain ⟨h0, h1, h2, -⟩ := batch_blocks t
  show arr0 m c (((cfg0.win 0).blk t).view.emb (ix3 r f e)) = _
  refine congrArg (arr0 m c) (funext fun a => Fin.ext ?_)
  match a with
  | ⟨0, _⟩ => show win0_0.index t (0 : Fin 3) * 1024 + 1 * r.val = t.val * 1024 + r.val; omega
  | ⟨1, _⟩ => show win0_0.index t (1 : Fin 3) * 26 + 1 * f.val = f.val; omega
  | ⟨2, _⟩ => show win0_0.index t (2 : Fin 3) * 4 + 1 * e.val = e.val; omega

theorem read1 (c : Dev nD) (t : Fin cfg0.N) (r : Fin 1024) (f : Fin 26) :
    blk1 m c t (ix2 r f) = arr1 m c (ix2 (rowAt t r) f) := by
  obtain ⟨-, -, -, h0, h1, -⟩ := batch_blocks t
  show arr1 m c (((cfg0.win 1).blk t).view.emb (ix2 r f)) = _
  refine congrArg (arr1 m c) (funext fun a => Fin.ext ?_)
  match a with
  | ⟨0, _⟩ => show win0_1.index t (0 : Fin 2) * 1024 + 1 * r.val = t.val * 1024 + r.val; omega
  | ⟨1, _⟩ => show win0_1.index t (1 : Fin 2) * 26 + 1 * f.val = f.val; omega

theorem read2 (c : Dev nD) (t : Fin cfg0.N) (r : Fin 1024) (j : Fin 13) :
    blk2 m c t (ix2 r j) = arr2 m c (ix2 (rowAt t r) j) := by
  obtain ⟨-, -, -, -, -, h0, h1, -⟩ := batch_blocks t
  show arr2 m c (((cfg0.win 2).blk t).view.emb (ix2 r j)) = _
  refine congrArg (arr2 m c) (funext fun a => Fin.ext ?_)
  match a with
  | ⟨0, _⟩ => show win0_2.index t (0 : Fin 2) * 1024 + 1 * r.val = t.val * 1024 + r.val; omega
  | ⟨1, _⟩ => show win0_2.index t (1 : Fin 2) * 13 + 1 * j.val = j.val; omega

theorem read3 (c : Dev nD) (t : Fin cfg0.N) (k : Fin 117) (j : Fin 12) : blk3 m c t (ix2 k j) = arr3 m c (ix2 k j) := by
  obtain ⟨h0, h1⟩ := at3 t
  show arr3 m c (((cfg0.win 3).blk t).view.emb (ix2 k j)) = _
  refine congrArg (arr3 m c) (funext fun a => Fin.ext ?_)
  match a with
  | ⟨0, _⟩ => show win0_3.index t (0 : Fin 2) * 117 + 1 * k.val = k.val; omega
  | ⟨1, _⟩ => show win0_3.index t (1 : Fin 2) * 12 + 1 * j.val = j.val; omega

theorem read4 (c : Dev nD) (t : Fin cfg0.N) (j : Fin 12) : blk4 m c t (ix1 j) = arr4 m c (ix1 j) := by
  have h0 := at4 t
  show arr4 m c (((cfg0.win 4).blk t).view.emb (ix1 j)) = _
  refine congrArg (arr4 m c) (funext fun a => Fin.ext ?_)
  match a with
  | ⟨0, _⟩ => show win0_4.index t (0 : Fin 1) * 12 + 1 * j.val = j.val; omega

theorem read5 (c : Dev nD) (t : Fin cfg0.N) (j : Fin 12) : blk5 m c t (ix1 j) = arr5 m c (ix1 j) := by
  have h0 := at5 t
  show arr5 m c (((cfg0.win 5).blk t).view.emb (ix1 j)) = _
  refine congrArg (arr5 m c) (funext fun a => Fin.ext ?_)
  match a with
  | ⟨0, _⟩ => show win0_5.index t (0 : Fin 1) * 12 + 1 * j.val = j.val; omega

theorem read6 (c : Dev nD) (t : Fin cfg0.N) (j : Fin 12) : blk6 m c t (ix1 j) = arr6 m c (ix1 j) := by
  have h0 := at6 t
  show arr6 m c (((cfg0.win 6).blk t).view.emb (ix1 j)) = _
  refine congrArg (arr6 m c) (funext fun a => Fin.ext ?_)
  match a with
  | ⟨0, _⟩ => show win0_6.index t (0 : Fin 1) * 12 + 1 * j.val = j.val; omega

theorem read7 (c : Dev nD) (t : Fin cfg0.N) (j : Fin 12) : blk7 m c t (ix1 j) = arr7 m c (ix1 j) := by
  have h0 := at7 t
  show arr7 m c (((cfg0.win 7).blk t).view.emb (ix1 j)) = _
  refine congrArg (arr7 m c) (funext fun a => Fin.ext ?_)
  match a with
  | ⟨0, _⟩ => show win0_7.index t (0 : Fin 1) * 12 + 1 * j.val = j.val; omega

theorem read8 (c : Dev nD) (t : Fin cfg0.N) (j : Fin 12) : blk8 m c t (ix1 j) = arr8 m c (ix1 j) := by
  have h0 := at8 t
  show arr8 m c (((cfg0.win 8).blk t).view.emb (ix1 j)) = _
  refine congrArg (arr8 m c) (funext fun a => Fin.ext ?_)
  match a with
  | ⟨0, _⟩ => show win0_8.index t (0 : Fin 1) * 12 + 1 * j.val = j.val; omega

theorem read9 (c : Dev nD) (t : Fin cfg0.N) (k : Fin 12) (j : Fin 8) : blk9 m c t (ix2 k j) = arr9 m c (ix2 k j) := by
  obtain ⟨h0, h1⟩ := at9 t
  show arr9 m c (((cfg0.win 9).blk t).view.emb (ix2 k j)) = _
  refine congrArg (arr9 m c) (funext fun a => Fin.ext ?_)
  match a with
  | ⟨0, _⟩ => show win0_9.index t (0 : Fin 2) * 12 + 1 * k.val = k.val; omega
  | ⟨1, _⟩ => show win0_9.index t (1 : Fin 2) * 8 + 1 * j.val = j.val; omega

theorem read10 (c : Dev nD) (t : Fin cfg0.N) (j : Fin 8) : blk10 m c t (ix1 j) = arr10 m c (ix1 j) := by
  have h0 := at10 t
  show arr10 m c (((cfg0.win 10).blk t).view.emb (ix1 j)) = _
  refine congrArg (arr10 m c) (funext fun a => Fin.ext ?_)
  match a with
  | ⟨0, _⟩ => show win0_10.index t (0 : Fin 1) * 8 + 1 * j.val = j.val; omega

theorem read11 (c : Dev nD) (t : Fin cfg0.N) (j : Fin 8) : blk11 m c t (ix1 j) = arr11 m c (ix1 j) := by
  have h0 := at11 t
  show arr11 m c (((cfg0.win 11).blk t).view.emb (ix1 j)) = _
  refine congrArg (arr11 m c) (funext fun a => Fin.ext ?_)
  match a with
  | ⟨0, _⟩ => show win0_11.index t (0 : Fin 1) * 8 + 1 * j.val = j.val; omega

theorem read12 (c : Dev nD) (t : Fin cfg0.N) (j : Fin 8) : blk12 m c t (ix1 j) = arr12 m c (ix1 j) := by
  have h0 := at12 t
  show arr12 m c (((cfg0.win 12).blk t).view.emb (ix1 j)) = _
  refine congrArg (arr12 m c) (funext fun a => Fin.ext ?_)
  match a with
  | ⟨0, _⟩ => show win0_12.index t (0 : Fin 1) * 8 + 1 * j.val = j.val; omega

theorem read13 (c : Dev nD) (t : Fin cfg0.N) (j : Fin 8) : blk13 m c t (ix1 j) = arr13 m c (ix1 j) := by
  have h0 := at13 t
  show arr13 m c (((cfg0.win 13).blk t).view.emb (ix1 j)) = _
  refine congrArg (arr13 m c) (funext fun a => Fin.ext ?_)
  match a with
  | ⟨0, _⟩ => show win0_13.index t (0 : Fin 1) * 8 + 1 * j.val = j.val; omega

theorem read14 (c : Dev nD) (t : Fin cfg0.N) (j : Fin 8) : blk14 m c t (ix1 j) = arr14 m c (ix1 j) := by
  have h0 := at14 t
  show arr14 m c (((cfg0.win 14).blk t).view.emb (ix1 j)) = _
  refine congrArg (arr14 m c) (funext fun a => Fin.ext ?_)
  match a with
  | ⟨0, _⟩ => show win0_14.index t (0 : Fin 1) * 8 + 1 * j.val = j.val; omega

theorem read15 (c : Dev nD) (t : Fin cfg0.N) (k : Fin 8) (j : Fin 4) : blk15 m c t (ix2 k j) = arr15 m c (ix2 k j) := by
  obtain ⟨h0, h1⟩ := at15 t
  show arr15 m c (((cfg0.win 15).blk t).view.emb (ix2 k j)) = _
  refine congrArg (arr15 m c) (funext fun a => Fin.ext ?_)
  match a with
  | ⟨0, _⟩ => show win0_15.index t (0 : Fin 2) * 8 + 1 * k.val = k.val; omega
  | ⟨1, _⟩ => show win0_15.index t (1 : Fin 2) * 4 + 1 * j.val = j.val; omega

theorem read16 (c : Dev nD) (t : Fin cfg0.N) (j : Fin 4) : blk16 m c t (ix1 j) = arr16 m c (ix1 j) := by
  have h0 := at16 t
  show arr16 m c (((cfg0.win 16).blk t).view.emb (ix1 j)) = _
  refine congrArg (arr16 m c) (funext fun a => Fin.ext ?_)
  match a with
  | ⟨0, _⟩ => show win0_16.index t (0 : Fin 1) * 4 + 1 * j.val = j.val; omega

theorem read17 (c : Dev nD) (t : Fin cfg0.N) (j : Fin 4) : blk17 m c t (ix1 j) = arr17 m c (ix1 j) := by
  have h0 := at17 t
  show arr17 m c (((cfg0.win 17).blk t).view.emb (ix1 j)) = _
  refine congrArg (arr17 m c) (funext fun a => Fin.ext ?_)
  match a with
  | ⟨0, _⟩ => show win0_17.index t (0 : Fin 1) * 4 + 1 * j.val = j.val; omega

theorem read18 (c : Dev nD) (t : Fin cfg0.N) (j : Fin 4) : blk18 m c t (ix1 j) = arr18 m c (ix1 j) := by
  have h0 := at18 t
  show arr18 m c (((cfg0.win 18).blk t).view.emb (ix1 j)) = _
  refine congrArg (arr18 m c) (funext fun a => Fin.ext ?_)
  match a with
  | ⟨0, _⟩ => show win0_18.index t (0 : Fin 1) * 4 + 1 * j.val = j.val; omega

theorem read19 (c : Dev nD) (t : Fin cfg0.N) (j : Fin 4) : blk19 m c t (ix1 j) = arr19 m c (ix1 j) := by
  have h0 := at19 t
  show arr19 m c (((cfg0.win 19).blk t).view.emb (ix1 j)) = _
  refine congrArg (arr19 m c) (funext fun a => Fin.ext ?_)
  match a with
  | ⟨0, _⟩ => show win0_19.index t (0 : Fin 1) * 4 + 1 * j.val = j.val; omega

theorem read20 (c : Dev nD) (t : Fin cfg0.N) (j : Fin 4) : blk20 m c t (ix1 j) = arr20 m c (ix1 j) := by
  have h0 := at20 t
  show arr20 m c (((cfg0.win 20).blk t).view.emb (ix1 j)) = _
  refine congrArg (arr20 m c) (funext fun a => Fin.ext ?_)
  match a with
  | ⟨0, _⟩ => show win0_20.index t (0 : Fin 1) * 4 + 1 * j.val = j.val; omega

theorem read21 (c : Dev nD) (t : Fin cfg0.N) (j : Fin 1) : blk21 m c t (ix1 j) = arr21 m c (ix1 j) := by
  have h0 := at21 t
  show arr21 m c (((cfg0.win 21).blk t).view.emb (ix1 j)) = _
  refine congrArg (arr21 m c) (funext fun a => Fin.ext ?_)
  match a with
  | ⟨0, _⟩ => show win0_21.index t (0 : Fin 1) * 1 + 1 * j.val = j.val; omega

/-! ## The region's output -/

/-- The row value of row `b` of the arrays as the region finds them. -/
def regionRow (c : Dev nD) (b : Fin 16384) : EReal :=
  FmRow.rowValue (fun f e => arr0 m c (ix3 b f e)) (fun f => arr1 m c (ix2 b f)) (fun j => arr2 m c (ix2 b j))
    (fun k j => arr3 m c (ix2 k j)) (fun j => arr4 m c (ix1 j)) (fun j => arr5 m c (ix1 j)) (fun j => arr6 m c (ix1 j))
    (fun j => arr7 m c (ix1 j)) (fun j => arr8 m c (ix1 j))
    (fun k j => arr9 m c (ix2 k j)) (fun j => arr10 m c (ix1 j)) (fun j => arr11 m c (ix1 j)) (fun j => arr12 m c (ix1 j))
    (fun j => arr13 m c (ix1 j)) (fun j => arr14 m c (ix1 j))
    (fun k j => arr15 m c (ix2 k j)) (fun j => arr16 m c (ix1 j)) (fun j => arr17 m c (ix1 j)) (fun j => arr18 m c (ix1 j))
    (fun j => arr19 m c (ix1 j)) (fun j => arr20 m c (ix1 j)) (arr21 m c (ix1 (0 : Fin 1)))

/-- The [16384, 1] array the region leaves: at (b, 0), the row value of row `b`. -/
def regionValue (c : Dev nD) : S16384x1.Idx → EReal := fun i => regionRow m c ⟨(i 0).val, (i 0).isLt⟩

/-- The row value of row `r` of the blocks at point `t` is the row value of row `t·1024 + r` of the arrays. -/
theorem block_rows (c : Dev nD) (t : Fin cfg0.N) (r : Fin 1024) :
    FmRow.rowValue (fun f e => blk0 m c t (ix3 r f e)) (fun f => blk1 m c t (ix2 r f)) (fun j => blk2 m c t (ix2 r j))
        (fun k j => blk3 m c t (ix2 k j)) (fun j => blk4 m c t (ix1 j)) (fun j => blk5 m c t (ix1 j))
        (fun j => blk6 m c t (ix1 j)) (fun j => blk7 m c t (ix1 j)) (fun j => blk8 m c t (ix1 j))
        (fun k j => blk9 m c t (ix2 k j)) (fun j => blk10 m c t (ix1 j)) (fun j => blk11 m c t (ix1 j))
        (fun j => blk12 m c t (ix1 j)) (fun j => blk13 m c t (ix1 j)) (fun j => blk14 m c t (ix1 j))
        (fun k j => blk15 m c t (ix2 k j)) (fun j => blk16 m c t (ix1 j)) (fun j => blk17 m c t (ix1 j))
        (fun j => blk18 m c t (ix1 j)) (fun j => blk19 m c t (ix1 j)) (fun j => blk20 m c t (ix1 j))
        (blk21 m c t (ix1 (0 : Fin 1)))
      = regionRow m c (rowAt t r) := by
  unfold regionRow
  simp only [read0, read1, read2, read3, read4, read5, read6, read7, read8, read9, read10, read11, read12, read13,
    read14, read15, read16, read17, read18, read19, read20, read21]

/-- WHAT POINT `t` WRITES BACK is block `t` of the region's output. -/
theorem flushed_eq (c : Dev nD) (t : Fin cfg0.N) :
    (dats m 0 c).flushed 22 t = ((cfg0.win 22).blk t).view.read (Elt Ideal) (regionValue m c) := by
  show (cfg0.win 22).cut (grid0.coords t) ((dats m 0 c).after 22 t) = _
  rw [after0_22]
  unfold out0_22
  rw [View.canon_unit_zero hz2]
  simp only [View.ld_unit_zero (S := S1024x26x4) hz3, View.ld_unit_zero (S := S1024x26) hz2,
    View.ld_unit_zero (S := S1024x13) hz2, View.ld_unit_zero (S := S117x12) hz2, View.ld_unit_zero (S := S12) hz1,
    View.ld_unit_zero (S := S12x8) hz2, View.ld_unit_zero (S := S8) hz1, View.ld_unit_zero (S := S8x4) hz2,
    View.ld_unit_zero (S := S4) hz1, View.ld_unit_zero (S := S1) hz1]
  funext j
  obtain ⟨r, q, rfl⟩ : ∃ (r : Fin 1024) (q : Fin 1), j = ix2 r q := ⟨j 0, j 1, eq_ix2 j⟩
  obtain rfl : q = 0 := Subsingleton.elim _ _
  refine (RowValue.payload_row (blk0 m c t) (blk1 m c t) (blk2 m c t) (blk3 m c t) (blk4 m c t) (blk5 m c t)
    (blk6 m c t) (blk7 m c t) (blk8 m c t) (blk9 m c t) (blk10 m c t) (blk11 m c t) (blk12 m c t) (blk13 m c t)
    (blk14 m c t) (blk15 m c t) (blk16 m c t) (blk17 m c t) (blk18 m c t) (blk19 m c t) (blk20 m c t) (blk21 m c t)
    r).trans ?_
  refine (block_rows m c t r).trans ?_
  -- row t·1024 + r is where block t's row r sits in the output
  obtain ⟨-, -, -, -, -, -, -, h0, h1⟩ := batch_blocks t
  show regionRow m c (rowAt t r) = regionRow m c ⟨(((cfg0.win 22).blk t).view.emb (ix2 r (0 : Fin 1)) 0).val, _⟩
  refine congrArg (regionRow m c) (Fin.ext ?_)
  show t.val * 1024 + r.val = win0_22.index t (0 : Fin 2) * 1024 + 1 * r.val
  omega

/-- An index of the output is in point `t`'s block iff each coordinate is in the block's range on its axis. -/
theorem mem_blk (t : Fin cfg0.N) (i : S16384x1.Idx) :
    i ∈ ((cfg0.win 22).blk t).view.set ↔ ∀ a : Fin 2, win0_22.index t a * S1024x1.size a ≤ (i a).val
      ∧ (i a).val < win0_22.index t a * S1024x1.size a + S1024x1.size a := by
  show i ∈ ((View.whole main_v15).slice (win0_22.rect t)).set ↔ _
  rw [View.set_slice_whole, Rect.mem_set_unit]
  exact Iff.rfl

/-- The 16 output blocks tile the output: row `b` is in the block of point `b / 1024`. -/
theorem cover (i : S16384x1.Idx) :
    ∃ t : Fin cfg0.N, (cfg0.win 22).flush t = true ∧ i ∈ ((cfg0.win 22).blk t).view.set := by
  have hi0 : (i 0).val < 16384 := (i 0).isLt
  have hi1 : (i 1).val < 1 := (i 1).isLt
  have hN : cfg0.N = 16 := N_0
  refine ⟨⟨(i 0).val / 1024, by omega⟩, flush0_22 _, ?_⟩
  rw [mem_blk]
  obtain ⟨-, -, -, -, -, -, -, h0, h1⟩ := batch_blocks ⟨(i 0).val / 1024, by omega⟩
  have hv : (⟨(i 0).val / 1024, by omega⟩ : Fin cfg0.N).val = (i 0).val / 1024 := rfl
  intro a
  match a with
  | ⟨0, _⟩ =>
    show win0_22.index _ (0 : Fin 2) * 1024 ≤ (i 0).val ∧ (i 0).val < win0_22.index _ (0 : Fin 2) * 1024 + 1024
    omega
  | ⟨1, _⟩ =>
    show win0_22.index _ (1 : Fin 2) * 1 ≤ (i 1).val ∧ (i 1).val < win0_22.index _ (1 : Fin 2) * 1 + 1
    omega

/-- THE OUTPUT ARRAY after the region: at (b, 0), the row value of row `b` of the arrays the region found. -/
theorem final (c : Dev nD) : (dats m 0 c).arrAt 22 cfg0.N = regionValue m c :=
  (dats m 0 c).arrAt_eq_of_cover 22 (regionValue m c) (fun t _ => flushed_eq m c t) cover

end Cert.KernelIdeal.Blocks

end
-- ==== Proof.LibSlotGather.lean ====
/-
  THE SLOT GATHER READ AT AN INDEX. What `table[idx]` of a rank-2 table `table : [N, C]` at a rank-2 array of row
  indices `idx : [n, K]` lowers to: a `stablehlo.gather` with offset_dims `[2]`, collapsed_slice_dims `[0]`,
  start_index_map `[0]`, index_vector_dim `2` and slice_sizes `[1, C]`, over the indices kept as an `[n, K, 1]`
  column. Its result is `[n, K, C]`, and the element at `(p, k, q)` is the table's at `(row, q)`, where `row` is the
  start index `idx[p, k, 0]` read as a SIGNED integer and CLAMPED into `[0, N − 1]`.
-/
import Idealize.ShloMosaic.PureOps.Ideal
import Idealize.ShloMosaic.Lib.ValueIdx
noncomputable section
namespace Idealize.ShloMosaic.SlotGather
open Idealize.ShloMosaic Idealize.ShloMosaic.ValueIdx

/-- The dimension numbers of a row gather out of an [N, C] table at an [n, K, 1] column of row indices. -/
abbrev slotDims (N C n K : Nat)
    (wf : GatherDims.WF ⟨2, ![N, C]⟩ ⟨3, ![n, K, 1]⟩ ⟨3, ![n, K, C]⟩ [2] [0] [] [0] [] 2 ![1, C]) :
    GatherDims ⟨2, ![N, C]⟩ ⟨3, ![n, K, 1]⟩ ⟨3, ![n, K, C]⟩ where
  offsetDims := [2]
  collapsedSliceDims := [0]
  operandBatchingDims := []
  startIndicesBatchingDims := []
  startIndexMap := [0]
  indexVectorDim := 2
  sliceSizes := ![1, C]
  wf := wf

/-- The slot gather read at (p, k, q): the table at the clamped signed start index of slot (p, k), column q. -/
theorem slotGather_apply {α : Type} {N C n K w : Nat} (hN : 0 < N)
    (wf : GatherDims.WF ⟨2, ![N, C]⟩ ⟨3, ![n, K, 1]⟩ ⟨3, ![n, K, C]⟩ [2] [0] [] [0] [] 2 ![1, C])
    (x : (⟨2, ![N, C]⟩ : Shape).Idx → α) (idx : IVec ⟨3, ![n, K, 1]⟩ w) (p : Fin n) (k : Fin K) (q : Fin C) :
    Host.gather (slotDims N C n K wf) x idx (ix3 p k q)
      = x (ix2 (⟨min (idx (ix3 p k (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (slotDims N C n K wf).start (ix3 p k q) idx 0 + (slotDims N C n K wf).batchCoord (ix3 p k q) 0
        + (slotDims N C n K wf).offCoord (ix3 p k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (slotDims N C n K wf).startIndexMap from List.mem_singleton.mpr rfl)]
    -- the start index's one component is read at (p, k, 0): the result's batch coordinates p and k on the start
    -- indices' axes 0 and 1, the component's number 0 on the index vector's axis 2
    have hsi : (slotDims N C n K wf).siIdx (ix3 p k q) ⟨List.idxOf (0 : Fin 2) (slotDims N C n K wf).startIndexMap,
        List.idxOf_lt_length_iff.2 (List.mem_singleton.mpr rfl)⟩ = ix3 p k (0 : Fin 1) := by
      funext b; refine Fin.ext ?_
      match b with
      | ⟨0, _⟩ => rfl
      | ⟨1, _⟩ => rfl
      | ⟨2, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (slotDims N C n K wf).start (ix3 p k q) idx 1 + (slotDims N C n K wf).batchCoord (ix3 p k q) 1
        + (slotDims N C n K wf).offCoord (ix3 p k q) 1 = q.val
    have hk : (1 : Fin 2) ∈ (slotDims N C n K wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (slotDims N C n K wf).startIndexMap by
      show (1 : Fin 2) ∉ [(0 : Fin 2)]; decide), dif_pos hk]
    simp only [Nat.zero_add]
    rfl
end Idealize.ShloMosaic.SlotGather
end
-- ==== Proof.Lookup.lean ====
/-
  Which table row an index word selects. An index is a 32-bit word read as a signed integer. A negative index counts
  from the table's end: it is replaced by itself plus the number of rows, 10400000 (addition of words, wrapping).
  The result is then clamped into the table: a value below 0 selects row 0, a value above the last row selects the last
  row, 10399999. Both programs apply exactly this rule before both of their lookups.
-/
import Idealize.ShloMosaic.PureOps.Ideal

noncomputable section

namespace Cert.Lookup

open Idealize.ShloMosaic

/-- A negative index word has the table's row count added to it; any other word is kept. -/
def wrap (w : BitVec 32) : BitVec 32 :=
  Scalar.select (IntOp.cmpi .slt w 0#32) (IntOp.addi w 10400000#32) w

/-- The table row an index word selects: the wrapped word as a signed integer, clamped into `[0, 10399999]`. -/
def rowOf (w : BitVec 32) : Fin 10400000 :=
  ⟨min (wrap w).toInt.toNat (10400000 - 1), by omega⟩

end Cert.Lookup

end
-- ==== Proof.KernelLookup.lean ====
/-
  What the region finds in its first two windows. Before the region the program wraps negative indices in the
  [16384, 26] index array, lays the result out as a [16384, 26, 1] column of start indices, and gathers one table row
  per slot (b, f): from the second-order table into a [16384, 26, 4] array, and from the first-order table into a
  [16384, 26, 1] array that is then reshaped to [16384, 26]. So the first array at (b, f, e) is the second-order table
  at the row the index of (b, f) selects, column e, and the second at (b, f) is the first-order table at that row's
  one column.
-/
import proofs.«411649_j53068615910202_4_alg».proof.Proof.Gen.KernelIdeal.Frame
import proofs.«411649_j53068615910202_4_alg».proof.Proof.LibSlotGather
import proofs.«411649_j53068615910202_4_alg».proof.Proof.Lookup
import Idealize.ShloMosaic.Lib.StableHlo.Run
import Idealize.ShloMosaic.Lib.Pipeline.Value
import Idealize.ShloMosaic.Lib.ValueIdx

noncomputable section

namespace Cert.KernelIdeal.Lookup

open Cert.KernelIdeal Cert.KernelIdeal.Gen Idealize.ShloMosaic Idealize.ShloMosaic.TcCoe Idealize.ShloMosaic.ValueIdx
open Idealize.SL.Sem Idealize.ShloMosaic.StableHlo

/-- The column of start indices at slot (b, f): the wrapped index word of (b, f). -/
theorem start_word (x : (⟨S16384x26, .i32⟩ : BufTy).Contents (Elt Ideal)) (b : Fin 16384) (f : Fin 26) :
    broadcastInDim S16384x26x1 ![0, 1] bcast_S16384x26_S16384x26x1_0_1
        (select (cmpi .slt x (broadcastInDim S16384x26 ![] bcast_S_S16384x26 (constantI S_ 32 0#32)))
          (addi x (broadcastInDim S16384x26 ![] bcast_S_S16384x26 (constantI S_ 32 10400000#32))) x)
        (ix3 b f (0 : Fin 1))
      = Cert.Lookup.wrap (x (ix2 b f)) := by
  rw [broadcastInDim_apply _ bcast_S16384x26_S16384x26x1_0_1 _ (ix3 b f (0 : Fin 1)) (ix2 b f) (fun a =>
    match a with
    | ⟨0, _⟩ => by show b.val = if (16384 : Nat) = 1 then 0 else b.val; rw [if_neg (by decide)]
    | ⟨1, _⟩ => by show f.val = if (26 : Nat) = 1 then 0 else f.val; rw [if_neg (by decide)])]
  show Scalar.select
      (IntOp.cmpi .slt (x (ix2 b f)) (broadcastInDim S16384x26 ![] bcast_S_S16384x26 (constantI S_ 32 0#32) (ix2 b f)))
      (IntOp.addi (x (ix2 b f))
        (broadcastInDim S16384x26 ![] bcast_S_S16384x26 (constantI S_ 32 10400000#32) (ix2 b f)))
      (x (ix2 b f)) = _
  rw [broadcastInDim_apply _ bcast_S_S16384x26 (constantI S_ 32 0#32) (ix2 b f) ix0 (fun a => a.elim0),
    broadcastInDim_apply _ bcast_S_S16384x26 (constantI S_ 32 10400000#32) (ix2 b f) ix0 (fun a => a.elim0)]
  rfl

/-- The second-order gather over the wrapped index column, read at (b, f, e). -/
theorem second_gather (x3 : (⟨S10400000x4, .f32⟩ : BufTy).Contents (Elt Ideal))
    (x0 : (⟨S16384x26, .i32⟩ : BufTy).Contents (Elt Ideal)) (b : Fin 16384) (f : Fin 26) (e : Fin 4) :
    Host.gather gather_S10400000x4_S16384x26x1_S16384x26x4_2_0_n_n_0_2_14 x3
        (broadcastInDim S16384x26x1 ![0, 1] bcast_S16384x26_S16384x26x1_0_1
          (select (cmpi .slt x0 (broadcastInDim S16384x26 ![] bcast_S_S16384x26 (constantI S_ 32 0#32)))
            (addi x0 (broadcastInDim S16384x26 ![] bcast_S_S16384x26 (constantI S_ 32 10400000#32))) x0))
        (ix3 b f e)
      = x3 (ix2 (Cert.Lookup.rowOf (x0 (ix2 b f))) e) := by
  have hrec : gather_S10400000x4_S16384x26x1_S16384x26x4_2_0_n_n_0_2_14
      = SlotGather.slotDims 10400000 4 16384 26 gather_S10400000x4_S16384x26x1_S16384x26x4_2_0_n_n_0_2_14_wf := rfl
  rw [hrec, SlotGather.slotGather_apply (by decide) _ x3 _ b f e]
  -- the two rows are equal as numbers: the gather's start index is the wrapped index word
  refine congrArg x3 (congrArg (fun r => ix2 r e) (Fin.ext ?_))
  exact congrArg (fun w : BitVec 32 => min w.toInt.toNat (10400000 - 1)) (start_word x0 b f)

/-- The first-order gather over the wrapped index column, reshaped to [16384, 26], read at (b, f): entry (b, f) of
    the reshaped array is entry (b, f, 0) of the gathered one, both at position b·26 + f. -/
theorem first_gather (x2 : (⟨S10400000x1, .f32⟩ : BufTy).Contents (Elt Ideal))
    (x0 : (⟨S16384x26, .i32⟩ : BufTy).Contents (Elt Ideal)) (b : Fin 16384) (f : Fin 26) :
    shapeCast S16384x26
        (Host.gather gather_S10400000x1_S16384x26x1_S16384x26x1_2_0_n_n_0_2_11 x2
          (broadcastInDim S16384x26x1 ![0, 1] bcast_S16384x26_S16384x26x1_0_1
            (select (cmpi .slt x0 (broadcastInDim S16384x26 ![] bcast_S_S16384x26 (constantI S_ 32 0#32)))
              (addi x0 (broadcastInDim S16384x26 ![] bcast_S_S16384x26 (constantI S_ 32 10400000#32))) x0)))
        shapeCasts_S16384x26x1_S16384x26 (ix2 b f)
      = x2 (ix2 (Cert.Lookup.rowOf (x0 (ix2 b f))) (0 : Fin 1)) := by
  rw [shapeCast_apply _ shapeCasts_S16384x26x1_S16384x26 (ix2 b f) (ix3 b f (0 : Fin 1))
    (by rewrite [Shape.rowMajor_val_three, Shape.rowMajor_val_two]
        show (b.val * 26 + f.val) * 1 + 0 = b.val * 26 + f.val; omega)]
  have hrec : gather_S10400000x1_S16384x26x1_S16384x26x1_2_0_n_n_0_2_11
      = SlotGather.slotDims 10400000 1 16384 26 gather_S10400000x1_S16384x26x1_S16384x26x1_2_0_n_n_0_2_11_wf := rfl
  rw [hrec, SlotGather.slotGather_apply (by decide) _ x2 _ b f (0 : Fin 1)]
  refine congrArg x2 (congrArg (fun r => ix2 r (0 : Fin 1)) (Fin.ext ?_))
  exact congrArg (fun w : BitVec 32 => min w.toInt.toNat (10400000 - 1)) (start_word x0 b f)

variable (m : (ℓ : Loc nD τ sig) → Buf (Elt Ideal) ℓ)

/-- The second-order window's array, as the host operations before the region leave it. -/
theorem second_array (c : Dev nD) :
    (V m c main_v14 : S16384x26x4.Idx → EReal)
      = Host.gather gather_S10400000x4_S16384x26x1_S16384x26x4_2_0_n_n_0_2_14 (m ((c : Thread nD τ).loc main_arg3))
          (broadcastInDim S16384x26x1 ![0, 1] bcast_S16384x26_S16384x26x1_0_1
            (select (cmpi .slt (m ((c : Thread nD τ).loc main_arg0))
                (broadcastInDim S16384x26 ![] bcast_S_S16384x26 (constantI S_ 32 0#32)))
              (addi (m ((c : Thread nD τ).loc main_arg0))
                (broadcastInDim S16384x26 ![] bcast_S_S16384x26 (constantI S_ 32 10400000#32)))
              (m ((c : Thread nD τ).loc main_arg0)))) := by
  show StableHlo.after hostOps0 (fun b => m (c, b)) (Proc.devRef .tc main_v14) = _
  after_results <;> rfl

/-- The first-order window's array, as the host operations before the region leave it. -/
theorem first_array (c : Dev nD) :
    (V m c main_v7 : S16384x26.Idx → EReal)
      = shapeCast S16384x26
          (Host.gather gather_S10400000x1_S16384x26x1_S16384x26x1_2_0_n_n_0_2_11 (m ((c : Thread nD τ).loc main_arg2))
            (broadcastInDim S16384x26x1 ![0, 1] bcast_S16384x26_S16384x26x1_0_1
              (select (cmpi .slt (m ((c : Thread nD τ).loc main_arg0))
                  (broadcastInDim S16384x26 ![] bcast_S_S16384x26 (constantI S_ 32 0#32)))
                (addi (m ((c : Thread nD τ).loc main_arg0))
                  (broadcastInDim S16384x26 ![] bcast_S_S16384x26 (constantI S_ 32 10400000#32)))
                (m ((c : Thread nD τ).loc main_arg0)))))
          shapeCasts_S16384x26x1_S16384x26 := by
  show StableHlo.after hostOps0 (fun b => m (c, b)) (Proc.devRef .tc main_v7) = _
  after_results <;> rfl

/-- The second-order window's array at (b, f, e): the second-order table at the row the index of (b, f) selects,
    column e. -/
theorem second_window (c : Dev nD) (b : Fin 16384) (f : Fin 26) (e : Fin 4) :
    (V m c main_v14 : S16384x26x4.Idx → EReal) (ix3 b f e)
      = (m ((c : Thread nD τ).loc main_arg3) : S10400000x4.Idx → EReal)
          (ix2 (Cert.Lookup.rowOf ((m ((c : Thread nD τ).loc main_arg0) : S16384x26.Idx → BitVec 32) (ix2 b f))) e) :=
  (congrFun (second_array m c) (ix3 b f e)).trans (second_gather _ _ b f e)

/-- The first-order window's array at (b, f): the first-order table at the row the index of (b, f) selects. -/
theorem first_window (c : Dev nD) (b : Fin 16384) (f : Fin 26) :
    (V m c main_v7 : S16384x26.Idx → EReal) (ix2 b f)
      = (m ((c : Thread nD τ).loc main_arg2) : S10400000x1.Idx → EReal)
          (ix2 (Cert.Lookup.rowOf ((m ((c : Thread nD τ).loc main_arg0) : S16384x26.Idx → BitVec 32) (ix2 b f)))
            (0 : Fin 1)) :=
  (congrFun (first_array m c) (ix2 b f)).trans (first_gather _ _ b f)

end Cert.KernelIdeal.Lookup

end
-- ==== Proof.FmResult.lean ====
/-
  The whole result as one function of the argument arrays. Entry b of the [16384] result is the row value of: the
  second-order table's rows selected by the 26 index words of row b, the first-order table's entries at the same rows,
  row b of the dense features, and the parameter arrays. Both programs end with this array.
-/
import proofs.«411649_j53068615910202_4_alg».proof.Proof.FmRow
import proofs.«411649_j53068615910202_4_alg».proof.Proof.Lookup
import Idealize.ShloMosaic.Lib.ValueIdx

noncomputable section

namespace Cert.FmRow

open Idealize.ShloMosaic Idealize.ShloMosaic.ValueIdx

/-- Entry `b` of the result, from the argument arrays: `idx` the [16384, 26] index words, `dense` the [16384, 13]
    dense features, `t1` and `t2` the first- and second-order tables, then the bias and the three layers' weights,
    biases, scales, shifts, running means and running variances. -/
def resultRow (idx : (⟨2, ![16384, 26]⟩ : Shape).Idx → BitVec 32) (dense : (⟨2, ![16384, 13]⟩ : Shape).Idx → EReal)
    (t1 : (⟨2, ![10400000, 1]⟩ : Shape).Idx → EReal) (t2 : (⟨2, ![10400000, 4]⟩ : Shape).Idx → EReal)
    (bias : (⟨1, ![1]⟩ : Shape).Idx → EReal)
    (w1 : (⟨2, ![117, 12]⟩ : Shape).Idx → EReal) (b1 g1 be1 mu1 var1 : (⟨1, ![12]⟩ : Shape).Idx → EReal)
    (w2 : (⟨2, ![12, 8]⟩ : Shape).Idx → EReal) (b2 g2 be2 mu2 var2 : (⟨1, ![8]⟩ : Shape).Idx → EReal)
    (w3 : (⟨2, ![8, 4]⟩ : Shape).Idx → EReal) (b3 g3 be3 mu3 var3 : (⟨1, ![4]⟩ : Shape).Idx → EReal)
    (b : Fin 16384) : EReal :=
  rowValue (fun f e => t2 (ix2 (Cert.Lookup.rowOf (idx (ix2 b f))) e))
    (fun f => t1 (ix2 (Cert.Lookup.rowOf (idx (ix2 b f))) (0 : Fin 1))) (fun j => dense (ix2 b j))
    (fun k j => w1 (ix2 k j)) (fun j => b1 (ix1 j)) (fun j => g1 (ix1 j)) (fun j => be1 (ix1 j))
    (fun j => mu1 (ix1 j)) (fun j => var1 (ix1 j))
    (fun k j => w2 (ix2 k j)) (fun j => b2 (ix1 j)) (fun j => g2 (ix1 j)) (fun j => be2 (ix1 j))
    (fun j => mu2 (ix1 j)) (fun j => var2 (ix1 j))
    (fun k j => w3 (ix2 k j)) (fun j => b3 (ix1 j)) (fun j => g3 (ix1 j)) (fun j => be3 (ix1 j))
    (fun j => mu3 (ix1 j)) (fun j => var3 (ix1 j)) (bias (ix1 (0 : Fin 1)))

/-- The [16384] result array. -/
def resultArray (idx : (⟨2, ![16384, 26]⟩ : Shape).Idx → BitVec 32) (dense : (⟨2, ![16384, 13]⟩ : Shape).Idx → EReal)
    (t1 : (⟨2, ![10400000, 1]⟩ : Shape).Idx → EReal) (t2 : (⟨2, ![10400000, 4]⟩ : Shape).Idx → EReal)
    (bias : (⟨1, ![1]⟩ : Shape).Idx → EReal)
    (w1 : (⟨2, ![117, 12]⟩ : Shape).Idx → EReal) (b1 g1 be1 mu1 var1 : (⟨1, ![12]⟩ : Shape).Idx → EReal)
    (w2 : (⟨2, ![12, 8]⟩ : Shape).Idx → EReal) (b2 g2 be2 mu2 var2 : (⟨1, ![8]⟩ : Shape).Idx → EReal)
    (w3 : (⟨2, ![8, 4]⟩ : Shape).Idx → EReal) (b3 g3 be3 mu3 var3 : (⟨1, ![4]⟩ : Shape).Idx → EReal) :
    (⟨1, ![16384]⟩ : Shape).Idx → EReal :=
  fun i => resultRow idx dense t1 t2 bias w1 b1 g1 be1 mu1 var1 w2 b2 g2 be2 mu2 var2 w3 b3 g3 be3 mu3 var3
    ⟨(i 0).val, (i 0).isLt⟩

end Cert.FmRow

end
-- ==== Proof.KernelRun.lean ====
/-
  The idealized kernel's run, with its result named. After the region the program reshapes the [16384, 1] output to
  [16384]; the region's output at (b, 0) is the row value of row b of the arrays the region found; the first two of
  those arrays are the tables at the rows the index words select, and the others are argument arrays. So the result
  is the result function of the argument arrays, and the arguments end unchanged.
-/
import proofs.«411649_j53068615910202_4_alg».proof.Proof.KernelBlocks
import proofs.«411649_j53068615910202_4_alg».proof.Proof.KernelLookup
import proofs.«411649_j53068615910202_4_alg».proof.Proof.FmResult
import Idealize.ShloMosaic.Lib.StableHlo.Run
import Idealize.ShloMosaic.Lib.Pipeline.Value

noncomputable section

namespace Cert.KernelIdeal.Result

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- Row b of the arrays the region found, as a function of the argument arrays. -/
theorem region_row_eq (c : Dev nD) (b : Fin 16384) :
    Blocks.regionRow m c b = FmRow.resultRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) b := by
  unfold Blocks.regionRow FmRow.resultRow
  -- the two looked-up arrays, slot by slot
  have h0 : (fun (f : Fin 26) (e : Fin 4) => Blocks.arr0 m c (ix3 b f e))
      = fun f e => (m ((c.tc : Thread nD τ).loc main_arg3) : S10400000x4.Idx → EReal)
          (ix2 (Cert.Lookup.rowOf ((m ((c.tc : Thread nD τ).loc main_arg0) : S16384x26.Idx → BitVec 32) (ix2 b f))) e) :=
    funext fun f => funext fun e => Lookup.second_window m c b f e
  have h1 : (fun (f : Fin 26) => Blocks.arr1 m c (ix2 b f))
      = fun f => (m ((c.tc : Thread nD τ).loc main_arg2) : S10400000x1.Idx → EReal)
          (ix2 (Cert.Lookup.rowOf ((m ((c.tc : Thread nD τ).loc main_arg0) : S16384x26.Idx → BitVec 32) (ix2 b f)))
            (0 : Fin 1)) :=
    funext fun f => Lookup.first_window m c b f
  -- every other array the region finds is an argument array
  rw [h0, h1,
    show Blocks.arr2 m c = m ((c.tc : Thread nD τ).loc main_arg1) from V_main_arg1 m c,
    show Blocks.arr3 m c = m ((c.tc : Thread nD τ).loc main_arg5) from V_main_arg5 m c,
    show Blocks.arr4 m c = m ((c.tc : Thread nD τ).loc main_arg6) from V_main_arg6 m c,
    show Blocks.arr5 m c = m ((c.tc : Thread nD τ).loc main_arg7) from V_main_arg7 m c,
    show Blocks.arr6 m c = m ((c.tc : Thread nD τ).loc main_arg8) from V_main_arg8 m c,
    show Blocks.arr7 m c = m ((c.tc : Thread nD τ).loc main_arg9) from V_main_arg9 m c,
    show Blocks.arr8 m c = m ((c.tc : Thread nD τ).loc main_arg10) from V_main_arg10 m c,
    show Blocks.arr9 m c = m ((c.tc : Thread nD τ).loc main_arg11) from V_main_arg11 m c,
    show Blocks.arr10 m c = m ((c.tc : Thread nD τ).loc main_arg12) from V_main_arg12 m c,
    show Blocks.arr11 m c = m ((c.tc : Thread nD τ).loc main_arg13) from V_main_arg13 m c,
    show Blocks.arr12 m c = m ((c.tc : Thread nD τ).loc main_arg14) from V_main_arg14 m c,
    show Blocks.arr13 m c = m ((c.tc : Thread nD τ).loc main_arg15) from V_main_arg15 m c,
    show Blocks.arr14 m c = m ((c.tc : Thread nD τ).loc main_arg16) from V_main_arg16 m c,
    show Blocks.arr15 m c = m ((c.tc : Thread nD τ).loc main_arg17) from V_main_arg17 m c,
    show Blocks.arr16 m c = m ((c.tc : Thread nD τ).loc main_arg18) from V_main_arg18 m c,
    show Blocks.arr17 m c = m ((c.tc : Thread nD τ).loc main_arg19) from V_main_arg19 m c,
    show Blocks.arr18 m c = m ((c.tc : Thread nD τ).loc main_arg20) from V_main_arg20 m c,
    show Blocks.arr19 m c = m ((c.tc : Thread nD τ).loc main_arg21) from V_main_arg21 m c,
    show Blocks.arr20 m c = m ((c.tc : Thread nD τ).loc main_arg22) from V_main_arg22 m c,
    show Blocks.arr21 m c = m ((c.tc : Thread nD τ).loc main_arg4) from V_main_arg4 m c]

/-- What the host line after the region leaves in the result: entry b is entry (b, 0) of the region's output, both at
    position b. -/
theorem tail_value (c : Dev nD) :
    (Pipeline.afterTail₀ cfgs (dats m) 0 (V0 m) [hostOps1] c main_v16 : S16384.Idx → EReal)
      = fun i => Blocks.regionRow m c ⟨(i 0).val, (i 0).isLt⟩ := by
  have e0 : (Pipeline.afterTail₀ cfgs (dats m) 0 (V0 m) [hostOps1] c main_v16 : S16384.Idx → EReal)
      = shapeCast S16384 (Pipeline.withArrays (cfgs 0).spec c (V0 m c) (fun w => (dats m 0 c).arrAt w (cfgs 0).N)
          (Proc.devRef .tc main_v15)) shapeCasts_S16384x1_S16384 := by
    unfold Pipeline.afterTail₀
    show StableHlo.after hostOps1 _ (Proc.devRef .tc main_v16) = _
    after_results <;> rfl
  have e1 : Pipeline.withArrays (cfgs 0).spec c (V0 m c) (fun w => (dats m 0 c).arrAt w (cfgs 0).N)
      (Proc.devRef .tc main_v15) = Blocks.regionValue m c :=
    (Pipeline.withArrays_arr spec0 launch0.win.arr_inj c _ _ 22).trans (Blocks.final m c)
  rw [e0, e1]
  funext i
  rw [shapeCast_apply _ shapeCasts_S16384x1_S16384 i (ix2 ⟨(i 0).val, (i 0).isLt⟩ (0 : Fin 1))
    (by rewrite [Shape.rowMajor_val_two, Shape.rowMajor_val_one]
        show (i 0).val * 1 + 0 = (i 0).val; omega)]
  rfl

/-- The result after the whole program, as the result function of the argument arrays. -/
theorem result_value (c : Dev nD) :
    (Pipeline.afterTail₀ cfgs (dats m) 0 (V0 m) [hostOps1] c main_v16 : S16384.Idx → EReal)
      = FmRow.resultArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  rw [tail_value]
  funext i
  exact region_row_eq m c _

set_option maxHeartbeats 1600000 in
/-- Every weakly fair execution of the idealized kernel's program terminates with the result at the result function of
    the argument arrays and the argument arrays unchanged: an argument some window stages ends at what its window's
    array held when the region was entered, which is the argument; an argument no window stages (the index array and
    the two tables, read only by the host gathers) is untouched by the region and by the line after it. -/
theorem run : θ_run defs (onTc (τ := τ) (main (F := Ideal))) ⟨m, fun _ => 0, ρ⟩ fun r => ∀ c : Dev nD,
      r.2.mem ((c.tc : Thread nD τ).loc main_v16) = FmRow.resultArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun r h c =>
    ⟨((h c).2 main_v16 (Pipeline.mem_restRefs_of main_v16 (by decide) (by decide))).trans (result_value m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 21).trans (((dats m 0 c).arrAt_in 21 rfl _).trans ((A_eq m c 21).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).1 7).trans (((dats m 0 c).arrAt_in 7 rfl _).trans ((A_eq m c 7).trans (V_main_arg9 m c))),
      ((h c).1 8).trans (((dats m 0 c).arrAt_in 8 rfl _).trans ((A_eq m c 8).trans (V_main_arg10 m c))),
      ((h c).1 9).trans (((dats m 0 c).arrAt_in 9 rfl _).trans ((A_eq m c 9).trans (V_main_arg11 m c))),
      ((h c).1 10).trans (((dats m 0 c).arrAt_in 10 rfl _).trans ((A_eq m c 10).trans (V_main_arg12 m c))),
      ((h c).1 11).trans (((dats m 0 c).arrAt_in 11 rfl _).trans ((A_eq m c 11).trans (V_main_arg13 m c))),
      ((h c).1 12).trans (((dats m 0 c).arrAt_in 12 rfl _).trans ((A_eq m c 12).trans (V_main_arg14 m c))),
      ((h c).1 13).trans (((dats m 0 c).arrAt_in 13 rfl _).trans ((A_eq m c 13).trans (V_main_arg15 m c))),
      ((h c).1 14).trans (((dats m 0 c).arrAt_in 14 rfl _).trans ((A_eq m c 14).trans (V_main_arg16 m c))),
      ((h c).1 15).trans (((dats m 0 c).arrAt_in 15 rfl _).trans ((A_eq m c 15).trans (V_main_arg17 m c))),
      ((h c).1 16).trans (((dats m 0 c).arrAt_in 16 rfl _).trans ((A_eq m c 16).trans (V_main_arg18 m c))),
      ((h c).1 17).trans (((dats m 0 c).arrAt_in 17 rfl _).trans ((A_eq m c 17).trans (V_main_arg19 m c))),
      ((h c).1 18).trans (((dats m 0 c).arrAt_in 18 rfl _).trans ((A_eq m c 18).trans (V_main_arg20 m c))),
      ((h c).1 19).trans (((dats m 0 c).arrAt_in 19 rfl _).trans ((A_eq m c 19).trans (V_main_arg21 m c))),
      ((h c).1 20).trans (((dats m 0 c).arrAt_in 20 rfl _).trans ((A_eq m c 20).trans (V_main_arg22 m c)))⟩)
    (run_main m ρ)

end Cert.KernelIdeal.Result

end
-- ==== Proof.RefRow.lean ====
/-
  One entry of the reference's result is the row value of that row of its gathered arrays.
-/
import proofs.«411649_j53068615910202_4_alg».proof.Proof.Gen.ReferenceIdeal.Read
import proofs.«411649_j53068615910202_4_alg».proof.Proof.FmRow
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RowValue

open Cert.ReferenceIdeal Cert.ReferenceIdeal.Read Idealize.ShloMosaic Idealize.ShloMosaic.ValueIdx

/-! ## The stages read at explicit coordinates

Each lemma reads one stage of the reference at an index given by its coordinates (`ix1 b`, `ix2 b j`), as the
corresponding piece of the row value: the sums' initial values are the zero word, so each float sum is the plain
finite sum; the broadcasts of the per-unit parameter vectors read the vector at the unit's own coordinate. -/

section Pieces

variable (x0 : (⟨S16384x26, .i32⟩ : BufTy).Contents (Elt Ideal)) (x1 : (⟨S16384x13, .f32⟩ : BufTy).Contents (Elt Ideal))
  (x2 : (⟨S10400000x1, .f32⟩ : BufTy).Contents (Elt Ideal)) (x3 : (⟨S10400000x4, .f32⟩ : BufTy).Contents (Elt Ideal))
  (x4 : (⟨S1, .f32⟩ : BufTy).Contents (Elt Ideal)) (x5 : (⟨S117x12, .f32⟩ : BufTy).Contents (Elt Ideal))
  (x6 x7 x8 x9 x10 : (⟨S12, .f32⟩ : BufTy).Contents (Elt Ideal)) (x11 : (⟨S12x8, .f32⟩ : BufTy).Contents (Elt Ideal))
  (x12 x13 x14 x15 x16 : (⟨S8, .f32⟩ : BufTy).Contents (Elt Ideal)) (x17 : (⟨S8x4, .f32⟩ : BufTy).Contents (Elt Ideal))
  (x18 x19 x20 x21 x22 : (⟨S4, .f32⟩ : BufTy).Contents (Elt Ideal))

/-- The binary32 word of 1.0 is the extended real 1. -/
theorem one_word : Ideal.ofBits .f32 0x3F800000#32 = 1 := by
  simp [Ideal.ofBits, Ideal.ieee, -EReal.coe_mul]; norm_num

/-- Stage %17 at (b, e): the sum over the 26 fields of component e. -/
theorem v17_at (b : Fin 16384) (e : Fin 4) :
    val_main_v17 (F := Ideal) x0 x3 (ix2 b e) = ∑ f : Fin 26, val_main_v16 (F := Ideal) x0 x3 (ix3 b f e) := by
  rw [val_main_v17_apply, val_main_cst_apply, Ideal.ofBits_def, Ideal.ofBits_zero_f32, zero_add]
  refine Finset.sum_congr rfl fun k _ => congrArg _ (funext fun a => ?_)
  match a with
  | ⟨0, _⟩ => rfl
  | ⟨1, _⟩ => rfl
  | ⟨2, _⟩ => rfl

/-- Stage %20 at (b, e): the sum over the 26 fields of the square of component e. -/
theorem v20_at (b : Fin 16384) (e : Fin 4) :
    val_main_v20 (F := Ideal) x0 x3 (ix2 b e)
      = ∑ f : Fin 26, val_main_v16 (F := Ideal) x0 x3 (ix3 b f e) * val_main_v16 (F := Ideal) x0 x3 (ix3 b f e) := by
  rw [val_main_v20_apply, val_main_cst_3_apply, Ideal.ofBits_def, Ideal.ofBits_zero_f32, zero_add]
  refine Finset.sum_congr rfl fun k _ => ?_
  rw [val_main_v19_apply, Ideal.mulf_def]
  have e1 : idx_main_v20 (ix2 b e) k = ix3 b k e := funext fun a => by
    match a with
    | ⟨0, _⟩ => rfl
    | ⟨1, _⟩ => rfl
    | ⟨2, _⟩ => rfl
  rw [e1]

/-- Stage %23 at (b, e): half of (square of the sum minus sum of the squares). -/
theorem v23_at (b : Fin 16384) (e : Fin 4) :
    val_main_v23 (F := Ideal) x0 x3 (ix2 b e)
      = FmRow.half * ((∑ f : Fin 26, val_main_v16 (F := Ideal) x0 x3 (ix3 b f e))
            * (∑ f : Fin 26, val_main_v16 (F := Ideal) x0 x3 (ix3 b f e))
          - ∑ f : Fin 26, val_main_v16 (F := Ideal) x0 x3 (ix3 b f e) * val_main_v16 (F := Ideal) x0 x3 (ix3 b f e)) := by
  rw [val_main_v23_apply, val_main_v22_apply, val_main_cst_4_apply, val_main_v21_apply, val_main_v18_apply,
    v17_at, v20_at]
  rfl

/-- Stage %87 at b: the pairwise interaction of the row's 26 selected 4-vectors. -/
theorem v87_at (b : Fin 16384) :
    val_main_v87 (F := Ideal) x0 x3 (ix1 b) = FmRow.pairwise (fun f e => val_main_v16 (F := Ideal) x0 x3 (ix3 b f e)) := by
  rw [val_main_v87_apply, val_main_cst_9_apply, Ideal.ofBits_def, Ideal.ofBits_zero_f32, zero_add]
  unfold FmRow.pairwise
  refine Finset.sum_congr rfl fun e _ => ?_
  have e1 : idx_main_v87 (ix1 b) e = ix2 b e := funext fun a => by
    match a with
    | ⟨0, _⟩ => rfl
    | ⟨1, _⟩ => rfl
  rw [e1, v23_at]

/-- Stage %86 at b: the sum of the row's 26 selected first-order entries. -/
theorem v86_at (b : Fin 16384) :
    val_main_v86 (F := Ideal) x0 x2 (ix1 b) = ∑ f : Fin 26, val_main_v8 (F := Ideal) x0 x2 (ix2 b f) := by
  rw [val_main_v86_apply, val_main_cst_8_apply, Ideal.ofBits_def, Ideal.ofBits_zero_f32, zero_add]
  refine Finset.sum_congr rfl fun k _ => congrArg _ (funext fun a => ?_)
  match a with
  | ⟨0, _⟩ => rfl
  | ⟨1, _⟩ => rfl

/-- Stage %25 at (b, k): the k-th of the 117 inputs of the first layer — for k < 104 entry (k / 4, k % 4) of the
    row's selected 4-vectors (the reshape %24 flattens them in row-major order), else dense feature k − 104. -/
theorem v25_at (b : Fin 16384) (k : Fin 117) :
    val_main_v25 (F := Ideal) x0 x1 x3 (ix2 b k)
      = FmRow.deep (fun f e => val_main_v16 (F := Ideal) x0 x3 (ix3 b f e)) (fun j => x1 (ix2 b j)) k := by
  have hb := b.isLt
  unfold val_main_v25 FmRow.deep
  by_cases h : k.val < 104
  · rw [dif_pos h]
    rw [concatenate_pair_apply_left (1 : Fin 2) (val_main_v24 (F := Ideal) x0 x3) x1
      Gen.concatenates_S16384x104_S16384x13_S16384x117_d1 (ix2 b k) rfl (ix2 b (⟨k.val, h⟩ : Fin 104))
      (fun a => by match a with | ⟨0, _⟩ => rfl | ⟨1, _⟩ => rfl)]
    rw [val_main_v24_apply]
    refine congrArg _ (funext fun a => Fin.ext ?_)
    match a with
    | ⟨0, _⟩ => show (b.val * 104 + k.val) / 104 = b.val; omega
    | ⟨1, _⟩ => show (b.val * 104 + k.val) / 4 % 26 = k.val / 4; omega
    | ⟨2, _⟩ => show (b.val * 104 + k.val) % 4 = k.val % 4; omega
  · rw [dif_neg h]
    have hk := k.isLt
    exact concatenate_pair_apply_right (1 : Fin 2) (val_main_v24 (F := Ideal) x0 x3) x1
      Gen.concatenates_S16384x104_S16384x13_S16384x117_d1 (ix2 b k) rfl rfl (ix2 b (⟨k.val - 104, by omega⟩ : Fin 13))
      (fun a => by
        match a with
        | ⟨0, _⟩ => exact fun _ => rfl
        | ⟨1, _⟩ => exact fun hne => absurd rfl hne)
      (by show (k.val - 104) + 104 = k.val; omega)

/-- Stage %45 at (b, j): output j of the first dense layer on the row's 117 inputs (stage %25's row b). -/
theorem v45_at (b : Fin 16384) (j : Fin 12) :
    val_main_v45 (F := Ideal) x0 x1 x3 x5 x6 x7 x8 x9 x10 (ix2 b j)
      = FmRow.layer (fun k : Fin 117 => val_main_v25 (F := Ideal) x0 x1 x3 (ix2 b k))
          (fun k j => x5 (ix2 k j)) (fun j => x6 (ix1 j)) (fun j => x7 (ix1 j)) (fun j => x8 (ix1 j))
          (fun j => x9 (ix1 j)) (fun j => x10 (ix1 j)) j := by
  rw [val_main_v45_apply, val_main_call0_v0_apply, val_main_call0_cst_apply, val_main_v44_apply,
    val_main_v43_apply, val_main_v42_apply, val_main_v41_apply, val_main_v40_apply, val_main_v39_apply,
    val_main_v38_apply, val_main_v37_apply, val_main_v36_apply, val_main_v35_apply, val_main_v34_apply,
    val_main_v33_apply, val_main_cst_5_apply, val_main_v32_apply, val_main_v31_apply, val_main_v30_apply,
    val_main_v29_apply, val_main_v28_apply, val_main_v27_apply, val_main_v26_apply]
  have i27 : idx_main_v27 (idx_main_v28 (ix2 b j)) = ix1 j := funext fun a => by match a with | ⟨0, _⟩ => rfl
  have i30 : idx_main_v30 (idx_main_v31 (ix2 b j)) = ix1 j := funext fun a => by match a with | ⟨0, _⟩ => rfl
  have i36 : idx_main_v36 (idx_main_v37 (ix2 b j)) = ix1 j := funext fun a => by match a with | ⟨0, _⟩ => rfl
  have i39 : idx_main_v39 (idx_main_v40 (ix2 b j)) = ix1 j := funext fun a => by match a with | ⟨0, _⟩ => rfl
  have i42 : idx_main_v42 (idx_main_v43 (ix2 b j)) = ix1 j := funext fun a => by match a with | ⟨0, _⟩ => rfl
  have il : ∀ k : Fin 117, lidx_main_v26 (ix2 b j) k = ix2 b k := fun k => funext fun a => by
    match a with
    | ⟨0, _⟩ => rfl
    | ⟨1, _⟩ => rfl
  have ir : ∀ k : Fin 117, ridx_main_v26 (ix2 b j) k = ix2 k j := fun k => funext fun a => by
    match a with
    | ⟨0, _⟩ => rfl
    | ⟨1, _⟩ => rfl
  simp only [i27, i30, i36, i39, i42, il, ir, Ideal.ofBits_def, Ideal.ofBits_zero_f32, Ideal.addf_def, Ideal.subf_def,
    Ideal.mulf_def, Ideal.maximumf_def, Ideal.hostUnary_rsqrt_def]
  rfl

/-- Stage %65 at (b, j): output j of the second dense layer on the first layer's 12 outputs (stage %45's row b). -/
theorem v65_at (b : Fin 16384) (j : Fin 8) :
    val_main_v65 (F := Ideal) x0 x1 x3 x5 x6 x7 x8 x9 x10 x11 x12 x13 x14 x15 x16 (ix2 b j)
      = FmRow.layer (fun k : Fin 12 => val_main_v45 (F := Ideal) x0 x1 x3 x5 x6 x7 x8 x9 x10 (ix2 b k))
          (fun k j => x11 (ix2 k j)) (fun j => x12 (ix1 j)) (fun j => x13 (ix1 j)) (fun j => x14 (ix1 j))
          (fun j => x15 (ix1 j)) (fun j => x16 (ix1 j)) j := by
  rw [val_main_v65_apply, val_main_call1_v0_apply, val_main_call1_cst_apply, val_main_v64_apply,
    val_main_v63_apply, val_main_v62_apply, val_main_v61_apply, val_main_v60_apply, val_main_v59_apply,
    val_main_v58_apply, val_main_v57_apply, val_main_v56_apply, val_main_v55_apply, val_main_v54_apply,
    val_main_v53_apply, val_main_cst_6_apply, val_main_v52_apply, val_main_v51_apply, val_main_v50_apply,
    val_main_v49_apply, val_main_v48_apply, val_main_v47_apply, val_main_v46_apply]
  have i47 : idx_main_v47 (idx_main_v48 (ix2 b j)) = ix1 j := funext fun a => by match a with | ⟨0, _⟩ => rfl
  have i50 : idx_main_v50 (idx_main_v51 (ix2 b j)) = ix1 j := funext fun a => by match a with | ⟨0, _⟩ => rfl
  have i56 : idx_main_v56 (idx_main_v57 (ix2 b j)) = ix1 j := funext fun a => by match a with | ⟨0, _⟩ => rfl
  have i59 : idx_main_v59 (idx_main_v60 (ix2 b j)) = ix1 j := funext fun a => by match a with | ⟨0, _⟩ => rfl
  have i62 : idx_main_v62 (idx_main_v63 (ix2 b j)) = ix1 j := funext fun a => by match a with | ⟨0, _⟩ => rfl
  have il : ∀ k : Fin 12, lidx_main_v46 (ix2 b j) k = ix2 b k := fun k => funext fun a => by
    match a with
    | ⟨0, _⟩ => rfl
    | ⟨1, _⟩ => rfl
  have ir : ∀ k : Fin 12, ridx_main_v46 (ix2 b j) k = ix2 k j := fun k => funext fun a => by
    match a with
    | ⟨0, _⟩ => rfl
    | ⟨1, _⟩ => rfl
  simp only [i47, i50, i56, i59, i62, il, ir, Ideal.ofBits_def, Ideal.ofBits_zero_f32, Ideal.addf_def, Ideal.subf_def,
    Ideal.mulf_def, Ideal.maximumf_def, Ideal.hostUnary_rsqrt_def]
  rfl

/-- Stage %85 at (b, j): output j of the third dense layer on the second layer's 8 outputs (stage %65's row b). -/
theorem v85_at (b : Fin 16384) (j : Fin 4) :
    val_main_v85 (F := Ideal) x0 x1 x3 x5 x6 x7 x8 x9 x10 x11 x12 x13 x14 x15 x16 x17 x18 x19 x20 x21 x22 (ix2 b j)
      = FmRow.layer
          (fun k : Fin 8 => val_main_v65 (F := Ideal) x0 x1 x3 x5 x6 x7 x8 x9 x10 x11 x12 x13 x14 x15 x16 (ix2 b k))
          (fun k j => x17 (ix2 k j)) (fun j => x18 (ix1 j)) (fun j => x19 (ix1 j)) (fun j => x20 (ix1 j))
          (fun j => x21 (ix1 j)) (fun j => x22 (ix1 j)) j := by
  rw [val_main_v85_apply, val_main_call2_v0_apply, val_main_call2_cst_apply, val_main_v84_apply,
    val_main_v83_apply, val_main_v82_apply, val_main_v81_apply, val_main_v80_apply, val_main_v79_apply,
    val_main_v78_apply, val_main_v77_apply, val_main_v76_apply, val_main_v75_apply, val_main_v74_apply,
    val_main_v73_apply, val_main_cst_7_apply, val_main_v72_apply, val_main_v71_apply, val_main_v70_apply,
    val_main_v69_apply, val_main_v68_apply, val_main_v67_apply, val_main_v66_apply]
  have i67 : idx_main_v67 (idx_main_v68 (ix2 b j)) = ix1 j := funext fun a => by match a with | ⟨0, _⟩ => rfl
  have i70 : idx_main_v70 (idx_main_v71 (ix2 b j)) = ix1 j := funext fun a => by match a with | ⟨0, _⟩ => rfl
  have i76 : idx_main_v76 (idx_main_v77 (ix2 b j)) = ix1 j := funext fun a => by match a with | ⟨0, _⟩ => rfl
  have i79 : idx_main_v79 (idx_main_v80 (ix2 b j)) = ix1 j := funext fun a => by match a with | ⟨0, _⟩ => rfl
  have i82 : idx_main_v82 (idx_main_v83 (ix2 b j)) = ix1 j := funext fun a => by match a with | ⟨0, _⟩ => rfl
  have il : ∀ k : Fin 8, lidx_main_v66 (ix2 b j) k = ix2 b k := fun k => funext fun a => by
    match a with
    | ⟨0, _⟩ => rfl
    | ⟨1, _⟩ => rfl
  have ir : ∀ k : Fin 8, ridx_main_v66 (ix2 b j) k = ix2 k j := fun k => funext fun a => by
    match a with
    | ⟨0, _⟩ => rfl
    | ⟨1, _⟩ => rfl
  simp only [i67, i70, i76, i79, i82, il, ir, Ideal.ofBits_def, Ideal.ofBits_zero_f32, Ideal.addf_def, Ideal.subf_def,
    Ideal.mulf_def, Ideal.maximumf_def, Ideal.hostUnary_rsqrt_def]
  rfl

/-- Stage %89 at b: the sum of the third layer's 4 outputs, which is the sum of the tower's outputs on the row. -/
theorem v89_at (b : Fin 16384) :
    val_main_v89 (F := Ideal) x0 x1 x3 x5 x6 x7 x8 x9 x10 x11 x12 x13 x14 x15 x16 x17 x18 x19 x20 x21 x22 (ix1 b)
      = ∑ j : Fin 4, FmRow.tower (fun f e => val_main_v16 (F := Ideal) x0 x3 (ix3 b f e)) (fun j => x1 (ix2 b j))
          (fun k j => x5 (ix2 k j)) (fun j => x6 (ix1 j)) (fun j => x7 (ix1 j)) (fun j => x8 (ix1 j))
          (fun j => x9 (ix1 j)) (fun j => x10 (ix1 j))
          (fun k j => x11 (ix2 k j)) (fun j => x12 (ix1 j)) (fun j => x13 (ix1 j)) (fun j => x14 (ix1 j))
          (fun j => x15 (ix1 j)) (fun j => x16 (ix1 j))
          (fun k j => x17 (ix2 k j)) (fun j => x18 (ix1 j)) (fun j => x19 (ix1 j)) (fun j => x20 (ix1 j))
          (fun j => x21 (ix1 j)) (fun j => x22 (ix1 j)) j := by
  rw [val_main_v89_apply, val_main_cst_10_apply, Ideal.ofBits_def, Ideal.ofBits_zero_f32, zero_add]
  refine Finset.sum_congr rfl fun j _ => ?_
  have e1 : idx_main_v89 (ix1 b) j = ix2 b j := funext fun a => by
    match a with
    | ⟨0, _⟩ => rfl
    | ⟨1, _⟩ => rfl
  rw [e1, v85_at]
  unfold FmRow.tower
  simp only [v65_at, v45_at, v25_at]

/-- Stage %91 (the bias array [1] recast to rank 0) at its one index is the bias array's one entry: both row-major
    positions are 0. -/
theorem v91_at (i : S_.Idx) : val_main_v91 (F := Ideal) x4 i = x4 (ix1 (0 : Fin 1)) := by
  unfold val_main_v91
  refine shapeCast_apply x4 Gen.shapeCasts_S1_S_ i (ix1 (0 : Fin 1)) ?_
  rw [Shape.rowMajor_val_one]
  exact (Shape.rowMajorPi_zero _ i).symm

end Pieces

/-- Entry `b` of the reference's result is the row value of row `b` of the gathered second-order rows (stage %16),
    the gathered first-order entries (stage %8) and the dense features, under the parameter arrays. -/
theorem result_row
    (x0 : (⟨S16384x26, .i32⟩ : BufTy).Contents (Elt Ideal)) (x1 : (⟨S16384x13, .f32⟩ : BufTy).Contents (Elt Ideal))
    (x2 : (⟨S10400000x1, .f32⟩ : BufTy).Contents (Elt Ideal)) (x3 : (⟨S10400000x4, .f32⟩ : BufTy).Contents (Elt Ideal))
    (x4 : (⟨S1, .f32⟩ : BufTy).Contents (Elt Ideal)) (x5 : (⟨S117x12, .f32⟩ : BufTy).Contents (Elt Ideal))
    (x6 x7 x8 x9 x10 : (⟨S12, .f32⟩ : BufTy).Contents (Elt Ideal)) (x11 : (⟨S12x8, .f32⟩ : BufTy).Contents (Elt Ideal))
    (x12 x13 x14 x15 x16 : (⟨S8, .f32⟩ : BufTy).Contents (Elt Ideal)) (x17 : (⟨S8x4, .f32⟩ : BufTy).Contents (Elt Ideal))
    (x18 x19 x20 x21 x22 : (⟨S4, .f32⟩ : BufTy).Contents (Elt Ideal)) (b : Fin 16384) :
    val_main_v99 (F := Ideal) x0 x1 x2 x3 x4 x5 x6 x7 x8 x9 x10 x11 x12 x13 x14 x15 x16 x17 x18 x19 x20 x21 x22 (ix1 b)
      = FmRow.rowValue (fun f e => val_main_v16 (F := Ideal) x0 x3 (ix3 b f e))
          (fun f => val_main_v8 (F := Ideal) x0 x2 (ix2 b f)) (fun j => x1 (ix2 b j))
          (fun k j => x5 (ix2 k j)) (fun j => x6 (ix1 j)) (fun j => x7 (ix1 j)) (fun j => x8 (ix1 j))
          (fun j => x9 (ix1 j)) (fun j => x10 (ix1 j))
          (fun k j => x11 (ix2 k j)) (fun j => x12 (ix1 j)) (fun j => x13 (ix1 j)) (fun j => x14 (ix1 j))
          (fun j => x15 (ix1 j)) (fun j => x16 (ix1 j))
          (fun k j => x17 (ix2 k j)) (fun j => x18 (ix1 j)) (fun j => x19 (ix1 j)) (fun j => x20 (ix1 j))
          (fun j => x21 (ix1 j)) (fun j => x22 (ix1 j)) (x4 (ix1 (0 : Fin 1))) := by
  rw [val_main_v99_apply, val_main_v98_apply, val_main_cst_12_apply, val_main_v97_apply, val_main_v96_apply,
    val_main_cst_11_apply, val_main_v95_apply, val_main_v94_apply, val_main_v93_apply, val_main_v92_apply, v91_at,
    val_main_v90_apply, val_main_v88_apply, v86_at, v87_at, v89_at]
  simp only [Ideal.ofBits_def, one_word, Ideal.hostDivf_def, Ideal.addf_def, Ideal.hostUnary_exp_def,
    Ideal.hostNegf_def, Ideal.negf_def]
  rfl

end Cert.ReferenceIdeal.RowValue

end
-- ==== Proof.LibRowGather.lean ====
/-
  THE ROW GATHER READ AT AN INDEX. What `table[idx]` of a rank-2 table `table : [N, C]` at a vector of row indices
  lowers to: a `stablehlo.gather` with offset_dims `[1]`, collapsed_slice_dims `[0]`, start_index_map `[0]`,
  index_vector_dim `1` and slice_sizes `[1, C]`, over the indices kept as an `[n, 1]` column. Its result is `[n, C]`,
  and the element at `(p, q)` is the table's at `(row, q)`, where `row` is the start index `idx[p, 0]` read as a SIGNED
  integer and CLAMPED into `[0, N − 1]` (StableHLO clamps every start index so that the slice fits; here the slice is
  one row, so the clamp is to the last row): a negative index reads row `0`, one past the end reads row `N − 1`.

  `rowDims` is the record of those dimension numbers, written as a literal structure so that every list lookup in the
  gather's operand index computes; `rowGather_apply` is the read. The lemma is general in `N`, `C`, `n`, the index
  width `w` and the element type; the conditions `wf` on the dimension numbers are decided on a program's literal
  shapes. This is the rank-2 companion of `ValueIdx.gather_take_apply` (a rank-1 table).
-/
import Idealize.ShloMosaic.PureOps.Ideal
import Idealize.ShloMosaic.Lib.ValueIdx
noncomputable section
namespace Idealize.ShloMosaic.RowGather
open Idealize.ShloMosaic Idealize.ShloMosaic.ValueIdx

/-- The dimension numbers of a row gather out of an [N, C] table at an [n, 1] column of row indices. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (p, q): the table at the clamped signed start index of row p, column q. -/
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    -- the start index's one component is read at (p, 0): the result's batch coordinate p on the start indices' axis 0,
    -- the component's number 0 on the index vector's axis 1
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.RefLookup.lean ====
/-
  The reference's two table lookups read at an index. The reference flattens the [16384, 26] index array to 425984
  positions (position b·26 + f holds the index of field f of row b), wraps negative indices, gathers one table row
  per position, and reshapes back. So the second-order stage at (b, f, e) is the second-order table at the row the
  index of (b, f) selects, column e, and the first-order stage at (b, f) is the first-order table at that row's one
  column.
-/
import proofs.«411649_j53068615910202_4_alg».proof.Proof.Gen.ReferenceIdeal.Read
import proofs.«411649_j53068615910202_4_alg».proof.Proof.LibRowGather
import proofs.«411649_j53068615910202_4_alg».proof.Proof.Lookup

noncomputable section

namespace Cert.ReferenceIdeal.Lookup

open Cert.ReferenceIdeal Cert.ReferenceIdeal.Gen Cert.ReferenceIdeal.Read Idealize.ShloMosaic Idealize.ShloMosaic.ValueIdx

/-- The flat position of field `f` of row `b`. -/
abbrev flat (b : Fin 16384) (f : Fin 26) : Fin 425984 := ⟨b.val * 26 + f.val, by omega⟩

/-- Position `b·26 + f` of the flattened index array is entry (b, f) of the index array. -/
theorem flat_index (b : Fin 16384) (f : Fin 26) : idx_main_v0 (ix1 (flat b f)) = ix2 b f :=
  funext fun a => Fin.ext (by
    match a with
    | ⟨0, _⟩ => show (b.val * 26 + f.val) / 26 = b.val; omega
    | ⟨1, _⟩ => show (b.val * 26 + f.val) % 26 = f.val; omega)

/-- The start index the first-order gather reads for position `b·26 + f`: the wrapped index of (b, f). -/
theorem start_first (x0 : (⟨S16384x26, .i32⟩ : BufTy).Contents (Elt Ideal)) (b : Fin 16384) (f : Fin 26) :
    val_main_v6 (F := Ideal) x0 (ix2 (flat b f) (0 : Fin 1)) = Cert.Lookup.wrap (x0 (ix2 b f)) := by
  rw [val_main_v6_apply]
  have h : idx_main_v6 (ix2 (flat b f) (0 : Fin 1)) = ix1 (flat b f) :=
    funext fun a => Fin.ext (by match a with | ⟨0, _⟩ => rfl)
  rw [h, val_main_v5_apply, val_main_v2_apply, val_main_v4_apply, val_main_v1_apply, val_main_v3_apply,
    val_main_v0_apply, flat_index]
  rfl

/-- The start index the second-order gather reads for position `b·26 + f`: the wrapped index of (b, f). -/
theorem start_second (x0 : (⟨S16384x26, .i32⟩ : BufTy).Contents (Elt Ideal)) (b : Fin 16384) (f : Fin 26) :
    val_main_v14 (F := Ideal) x0 (ix2 (flat b f) (0 : Fin 1)) = Cert.Lookup.wrap (x0 (ix2 b f)) := by
  rw [val_main_v14_apply]
  have h : idx_main_v14 (ix2 (flat b f) (0 : Fin 1)) = ix1 (flat b f) :=
    funext fun a => Fin.ext (by match a with | ⟨0, _⟩ => rfl)
  rw [h, val_main_v13_apply, val_main_v10_apply, val_main_v12_apply, val_main_v9_apply, val_main_v11_apply,
    val_main_v0_apply, flat_index]
  rfl

/-- The reshaped first-order lookup at (b, f): the first-order table at the row the index of (b, f) selects. -/
theorem first_lookup (x0 : (⟨S16384x26, .i32⟩ : BufTy).Contents (Elt Ideal))
    (x2 : (⟨S10400000x1, .f32⟩ : BufTy).Contents (Elt Ideal)) (b : Fin 16384) (f : Fin 26) :
    val_main_v8 (F := Ideal) x0 x2 (ix2 b f) = x2 (ix2 (Cert.Lookup.rowOf (x0 (ix2 b f))) (0 : Fin 1)) := by
  rw [val_main_v8_apply]
  have h : idx_main_v8 (ix2 b f) = ix2 (flat b f) (0 : Fin 1) :=
    funext fun a => Fin.ext (by
      match a with
      | ⟨0, _⟩ => show (b.val * 26 + f.val) / 1 = b.val * 26 + f.val; omega
      | ⟨1, _⟩ => rfl)
  rw [h]
  unfold val_main_v7
  have hrec : gather_S10400000x1_S425984x1_S425984x1_1_0_n_n_0_1_11
      = RowGather.rowDims 10400000 1 425984 gather_S10400000x1_S425984x1_S425984x1_1_0_n_n_0_1_11_wf := rfl
  rw [hrec, RowGather.rowGather_apply (by decide) _ x2 (val_main_v6 (F := Ideal) x0) (flat b f) (0 : Fin 1)]
  -- the two rows are equal as numbers: the gather's start index is the wrapped index word
  refine congrArg x2 (congrArg (fun r => ix2 r (0 : Fin 1)) (Fin.ext ?_))
  show min (val_main_v6 (F := Ideal) x0 (ix2 (flat b f) (0 : Fin 1))).toInt.toNat (10400000 - 1)
    = min (Cert.Lookup.wrap (x0 (ix2 b f))).toInt.toNat (10400000 - 1)
  rw [start_first]

/-- The reshaped second-order lookup at (b, f, e): the second-order table at the row the index of (b, f) selects,
    column e. -/
theorem second_lookup (x0 : (⟨S16384x26, .i32⟩ : BufTy).Contents (Elt Ideal))
    (x3 : (⟨S10400000x4, .f32⟩ : BufTy).Contents (Elt Ideal)) (b : Fin 16384) (f : Fin 26) (e : Fin 4) :
    val_main_v16 (F := Ideal) x0 x3 (ix3 b f e) = x3 (ix2 (Cert.Lookup.rowOf (x0 (ix2 b f))) e) := by
  rw [val_main_v16_apply]
  have h : idx_main_v16 (ix3 b f e) = ix2 (flat b f) e :=
    funext fun a => Fin.ext (by
      match a with
      | ⟨0, _⟩ => show ((b.val * 26 + f.val) * 4 + e.val) / 4 = b.val * 26 + f.val; omega
      | ⟨1, _⟩ => show ((b.val * 26 + f.val) * 4 + e.val) % 4 = e.val; omega)
  rw [h]
  unfold val_main_v15
  have hrec : gather_S10400000x4_S425984x1_S425984x4_1_0_n_n_0_1_14
      = RowGather.rowDims 10400000 4 425984 gather_S10400000x4_S425984x1_S425984x4_1_0_n_n_0_1_14_wf := rfl
  rw [hrec, RowGather.rowGather_apply (by decide) _ x3 (val_main_v14 (F := Ideal) x0) (flat b f) e]
  -- the two rows are equal as numbers: the gather's start index is the wrapped index word
  refine congrArg x3 (congrArg (fun r => ix2 r e) (Fin.ext ?_))
  show min (val_main_v14 (F := Ideal) x0 (ix2 (flat b f) (0 : Fin 1))).toInt.toNat (10400000 - 1)
    = min (Cert.Lookup.wrap (x0 (ix2 b f))).toInt.toNat (10400000 - 1)
  rw [start_second]

end Cert.ReferenceIdeal.Lookup

end
-- ==== Proof.RefResult.lean ====
/-
  The reference's result array is the result function of its argument arrays: entry b is the row value of row b of
  its two reshaped lookups, and those lookups are the tables at the rows the index words select.
-/
import proofs.«411649_j53068615910202_4_alg».proof.Proof.Gen.ReferenceIdeal.Read
import proofs.«411649_j53068615910202_4_alg».proof.Proof.RefRow
import proofs.«411649_j53068615910202_4_alg».proof.Proof.RefLookup
import proofs.«411649_j53068615910202_4_alg».proof.Proof.FmResult

noncomputable section

namespace Cert.ReferenceIdeal.Result

open Cert.ReferenceIdeal Cert.ReferenceIdeal.Gen Cert.ReferenceIdeal.Read Idealize.ShloMosaic Idealize.ShloMosaic.TcCoe
open Idealize.ShloMosaic.ValueIdx Idealize.SL.Sem

/-- The array the reference's run ends with is the result function of its argument arrays. -/
theorem result_eq (m : (ℓ : Loc nD τ sig) → Buf (Elt Ideal) ℓ) (c : Dev nD) :
    (Cert.ReferenceIdeal.Value.res_main_v99 (F := Ideal) m c : S16384.Idx → EReal)
      = FmRow.resultArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  rw [val_main_v99_eq]
  funext i
  obtain ⟨b, rfl⟩ : ∃ b : Fin 16384, i = ix1 b := ⟨i 0, eq_ix1 i⟩
  rw [RowValue.result_row]
  unfold FmRow.resultArray FmRow.resultRow
  simp only [Lookup.second_lookup, Lookup.first_lookup]

end Cert.ReferenceIdeal.Result

end
-- ==== Proof.lean ====
/-
  Both programs compute, for each of 16384 batch rows, the logistic function of a factorization-machine score: the sum
  of 26 first-order table entries, the pairwise interaction ½ Σ_e ((Σ_f E f e)² − Σ_f (E f e)²) of 26 second-order
  table rows, the sum of the outputs of three dense layers (each an affine map, a normalisation with running
  statistics, and a rectification) on the 104 second-order entries and 13 dense features, and a bias. The table rows
  are selected by 32-bit index words: a negative word counts from the table's end, and the result is clamped into the
  table, in both programs alike.

  The kernel gathers the rows on the host with one gather per table over the [16384, 26] index array, runs one region
  over 16 blocks of 1024 rows that does all the arithmetic, and reshapes the [16384, 1] output to [16384]. The
  reference flattens the index array to 425984 positions, gathers, reshapes back, and does the same arithmetic on
  whole arrays. At the ideal instance every float operation is the exact one on the extended reals and a change of
  float format is the identity, so the kernel's casts to a narrower format before its matrix products change nothing,
  a matrix product into a zero accumulator is the plain sum of products, and the logistic function is the same
  function whether it is one operation or written out as 1 / (1 + exp(−x)). Row by row the two programs therefore
  evaluate one and the same expression (Proof/FmRow.lean, Proof/FmResult.lean), with no law of arithmetic needed
  beyond the defining equations of the operations; in particular no finiteness of the inputs is used.

  The three frames: the two kernel programs' are the generated frame certificates; the reference's is its generated
  run with the result forgotten. The idealization rewrote no operation, so there is nothing to preserve.
-/
import proofs.«411649_j53068615910202_4_alg».proof.Defs
import proofs.«411649_j53068615910202_4_alg».proof.Proof.Gen.Kernel
import proofs.«411649_j53068615910202_4_alg».proof.Proof.Gen.Kernel.Frame
import proofs.«411649_j53068615910202_4_alg».proof.Proof.Gen.KernelIdeal
import proofs.«411649_j53068615910202_4_alg».proof.Proof.Gen.KernelIdeal.Frame
import proofs.«411649_j53068615910202_4_alg».proof.Proof.Gen.ReferenceIdeal
import proofs.«411649_j53068615910202_4_alg».proof.Proof.Gen.ReferenceIdeal.Run
import proofs.«411649_j53068615910202_4_alg».proof.Proof.Gen.ReferenceIdeal.Read
import proofs.«411649_j53068615910202_4_alg».proof.Proof.Gen.Pre_finite_inputs
import proofs.«411649_j53068615910202_4_alg».proof.Proof.KernelRun
import proofs.«411649_j53068615910202_4_alg».proof.Proof.RefResult
import Idealize.ShloMosaic.Adequacy
import Idealize.ShloMosaic.Init

noncomputable section

namespace Cert.Proof

open Idealize.ShloMosaic Idealize.SL.Sem Idealize.ShloMosaic.TcCoe

/-- From memories that agree on the 23 arguments both programs run, both end with the result function of those
    arguments, and both leave the arguments unchanged. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Result.result_eq]
  obtain ⟨a0, a1, a2, a3, a4, a5, a6, a7, a8, a9, a10, a11, a12, a13, a14, a15, a16, a17, a18, a19, a20, a21, a22⟩ :=
    hagree c
  rw [a0, a1, a2, a3, a4, a5, a6, a7, a8, a9, a10, a11, a12, a13, a14, a15, a16, a17, a18, a19, a20, a21, a22]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
